-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S2x128 : Shape := ⟨2, ![2, 128]⟩
abbrev S2000x128 : Shape := ⟨2, ![2000, 128]⟩

abbrev nBuf : Space → Nat
  | .hbm => 51
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S1x128, .f32⟩
  | .hbm, ⟨27, _⟩ => ⟨S100000x128, .f32⟩
  | .hbm, ⟨28, _⟩ => ⟨S2x128, .f32⟩
  | .hbm, ⟨29, _⟩ => ⟨S1x128, .f32⟩
  | .hbm, ⟨30, _⟩ => ⟨S128, .f32⟩
  | .hbm, ⟨31, _⟩ => ⟨S1x128, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S1x128, .f32⟩
  | .hbm, ⟨50, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2x128, .f32⟩
  | .local _ .vmem, ⟨11, _⟩ => ⟨S2x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v41 : BitVec 1 := Scalar.cmpi .eq arg0 c49_i32
  let v42 : BitVec 32 := Scalar.extui v41
  let c0_i32_25 : BitVec 32 := 0#32
  let v43 : BitVec 1 := Scalar.cmpi .ne v42 c0_i32_25
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S128 : S2000x128.Reduces [0] S128
  inb_S2x128_S1x128_0_0 : ∀ a, (![0, 0] : Fin 2 → Nat) a + S1x128.size a ≤ S2x128.size a
  shapeCasts_S1x128_S128 : S1x128.ShapeCasts S128
  inb_S2x128_S1x128_1_0 : ∀ a, (![1, 0] : Fin 2 → Nat) a + S1x128.size a ≤ S2x128.size a
  slices_S2x128_S1x128_0_0 : S2x128.Slices ![0, 0] S1x128
  slices_S2x128_S1x128_1_0 : S2x128.Slices ![1, 0] S1x128
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x128.size a ≤ S2x128.size a
  hwx0_7 : ∀ i : grid0.Coords, EltTy.bits .f32 = 32 ∨ (Rect.block (s := S2x128) S2x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S2x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v16_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S_, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.K.Reg0Runs.lean ====
/-
  The first kernel region (perceptron and column statistics): what its three control cases share.

  The body at grid point `t` (50 points, `t = 0 … 49`) resets a 2×128 scratch to zero when `t = 0`, computes the
  perceptron's output for rows `2000·t …` and stores it over the whole output block, adds the block's column sums and
  column sums of squares into rows 0 and 1 of the scratch, and when `t = 49` copies the scratch to the statistics
  output. So a point is in one of three cases: first (reset, no copy), middle (neither), last (copy, no reset); the
  statistics window is idle, and not written back, except at the last point.
-/
import proofs.«132064_j22196390986098_1_alg».proof.Proof.Gen.Kernel.Launch
import proofs.«132064_j22196390986098_1_alg».proof.Proof.Gen.Kernel.Skeleton
import proofs.«132064_j22196390986098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the elaborator recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or the
    block index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- "This is the first point": the reset's condition, as the body computes it from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

/-- "This is the last point": the copy-out's condition. -/
abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- At the first point the body stores nothing into the statistics window, and the pipeline does not write it back. -/
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
/-- Nor at a middle point. -/
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
/-- At the last point it is live. -/
theorem liveAt0_7_C : ∀ t : Fin cfg0.N, ¬cond0_0 (grid0.coords t) → cond0_1 (grid0.coords t) → cfg0.idle 7 (grid0.coords t) = false := by decide +kernel

/-! ## The memrefs the body is called with -/

/-- One staging buffer of each output window, through which its contents are stated. -/
abbrev VO0_6 : View sig .tc .vmem S2000x128 .f32 := (Memref.whole cc0_stg6_0 : Memref sig .tc .vmem S2000x128 .f32).view
abbrev VO0_7 : View sig .tc .vmem S2x128 .f32 := (Memref.whole cc0_stg7_0 : Memref sig .tc .vmem S2x128 .f32).view
/-- Each window's current staging memref at point `t`, and its wholeness. -/
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x128 .f32 := win0_7.stage (cfg0.slots t 7)
abbrev hs0_7 (t : Fin cfg0.N) : (ms0_7 t).IsWhole := hstage0_7 ((cfg0.slots t 7).cast nbuf0_7)
/-- The accumulator scratch the kernel carries between points: a whole scoped buffer of its own. -/
abbrev scM0_0 : Memref sig .tc .vmem S2x128 .f32 := Memref.whole cc0_scratch0
abbrev VS0_0 : View sig .tc .vmem S2x128 .f32 := scM0_0.view

/-- The other region's staging buffers: scoped buffers this region never touches, each whole at some contents. -/
def Other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The invariant before the first point, with the scratch as a memref owned at some contents: the scratch, the
    other region's staging buffers, the generator register. -/
theorem PhiA0_eq (c : Dev nD) :
    (Pipeline.ΦA spec0 c : sProp 𝕄)
      = iprop(iprop((∃ d, owns (c : Thread nD τ) scM0_0 fullShare d) ∗ Other0 c) ∗ (∃ r, prngReg c r)) := by
  unfold Pipeline.ΦA Other0; rw [scopedRest0_eq]; simp only [scM0_0, owns_whole]; try rfl

end Cert.Kernel.Fr

end
-- ==== Proof.K.Reg0RunA.lean ====
/-
  The first kernel region's body run whole in its FIRST case (the point resets the scratch and does not copy it out).
  The pieces each buffer ends with are found by the run itself (they are the witness); what they say is read later.
-/
import proofs.«132064_j22196390986098_1_alg».proof.Proof.K.Reg0Runs

-- membership in a rectangle of 2000 rows: the elaborator recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1000000 in
/-- On whole staging memrefs, the inputs' at contents `x0 … x5`, the perceptron output's at anything, the statistics
    output's at contents `xi7` handed back untouched, the scratch at anything: the body runs to its
    continuation with the inputs as they were and each buffer it stored into with its pieces written. -/
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : cond0_0 i) (hc1 : ¬cond0_1 i)
    (x0 x1 : Vec F S2000x128 .f32) (x2 : Vec F S128x128 .f32) (x3 : Vec F S1x128 .f32) (x4 : Vec F S128x128 .f32) (x5 : Vec F S1x128 .f32) :
    Σ' (L6 : List (View.Piece (Elt F) S2000x128 .f32)) (L7 : List (View.Piece (Elt F) S2x128 .f32)), { LS0 : List (View.Piece (Elt F) S2x128 .f32) //
      ∀ (xi7 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

end Cert.Kernel.Fr

end
-- ==== Proof.K.Reg0RunB.lean ====
/-
  The first kernel region's body run whole in its MIDDLE case (no reset, no copy-out).
  The pieces each buffer ends with are found by the run itself (they are the witness); what they say is read later.
-/
import proofs.«132064_j22196390986098_1_alg».proof.Proof.K.Reg0RunA

-- membership in a rectangle of 2000 rows: the elaborator recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1000000 in
/-- On whole staging memrefs, the inputs' at contents `x0 … x5`, the perceptron output's at anything, the statistics
    output's at contents `xi7` handed back untouched, the scratch at the contents `xs0` the point before left: the body runs to its
    continuation with the inputs as they were and each buffer it stored into with its pieces written. -/
noncomputable def kernelRun0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : ¬cond0_1 i)
    (x0 x1 : Vec F S2000x128 .f32) (x2 : Vec F S128x128 .f32) (x3 : Vec F S1x128 .f32) (x4 : Vec F S128x128 .f32) (x5 : Vec F S1x128 .f32) (xs0 : Vec F S2x128 .f32) :
    Σ' (L6 : List (View.Piece (Elt F) S2000x128 .f32)) (L7 : List (View.Piece (Elt F) S2x128 .f32)), { LS0 : List (View.Piece (Elt F) S2x128 .f32) //
      ∀ (xi7 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

end Cert.Kernel.Fr

end
-- ==== Proof.K.Reg0RunC.lean ====
/-
  The first kernel region's body run whole in its LAST case (no reset; the scratch is copied to the statistics output).
  The pieces each buffer ends with are found by the run itself (they are the witness); what they say is read later.
-/
import proofs.«132064_j22196390986098_1_alg».proof.Proof.K.Reg0RunB

-- membership in a rectangle of 2000 rows: the elaborator recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1000000 in
/-- On whole staging memrefs, the inputs' at contents `x0 … x5`, the perceptron output's at anything, the statistics
    output's at anything, the scratch at the contents `xs0` the point before left: the body runs to its
    continuation with the inputs as they were and each buffer it stored into with its pieces written. -/
noncomputable def kernelRun0_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : cond0_1 i)
    (x0 x1 : Vec F S2000x128 .f32) (x2 : Vec F S128x128 .f32) (x3 : Vec F S1x128 .f32) (x4 : Vec F S128x128 .f32) (x5 : Vec F S1x128 .f32) (xs0 : Vec F S2x128 .f32) :
    Σ' (L6 : List (View.Piece (Elt F) S2000x128 .f32)) (L7 : List (View.Piece (Elt F) S2x128 .f32)), { LS0 : List (View.Piece (Elt F) S2x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.Kernel.Fr

end
-- ==== Proof.K.Reg0.lean ====
/-
  The first kernel region (perceptron and column statistics): what each control case leaves, what the output buffers
  and the carried scratch hold after every grid point (by recursion on the point: the first point starts the scratch
  from zero, every later one adds to what the point before left), the region's invariant (the scratch at exactly those
  contents between points), its proof data and its body obligation.
-/
import proofs.«132064_j22196390986098_1_alg».proof.Proof.K.Reg0RunC

-- membership in a rectangle of 2000 rows: the elaborator recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- In the first case the pieces stored into the perceptron output's buffer tile it, so they cover it. -/
theorem cover0_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : cond0_0 i) (hc1 : ¬cond0_1 i)
    (x0 x1 : Vec F S2000x128 .f32) (x2 : Vec F S128x128 .f32) (x3 : Vec F S1x128 .f32) (x4 : Vec F S128x128 .f32) (x5 : Vec F S1x128 .f32) (y : S2000x128.Idx) :
    ∃ pc ∈ (kernelRun0_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4 x5).1 S2000x128.size (by sl_kernel_rfl) y

/-- What the case leaves in the perceptron output's buffer: its pieces read back. -/
def out0_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : cond0_0 i) (hc1 : ¬cond0_1 i)
    (x0 x1 : Vec F S2000x128 .f32) (x2 : Vec F S128x128 .f32) (x3 : Vec F S1x128 .f32) (x4 : Vec F S128x128 .f32) (x5 : Vec F S1x128 .f32) : Vec F S2000x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 hc1 x0 x1 x2 x3 x4 x5).1)

/-- What the case leaves in the statistics buffer (nothing is stored: a placeholder nothing consults, the window being idle and not written back there). -/
def out0_A_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : cond0_0 i) (hc1 : ¬cond0_1 i)
    (x0 x1 : Vec F S2000x128 .f32) (x2 : Vec F S128x128 .f32) (x3 : Vec F S1x128 .f32) (x4 : Vec F S128x128 .f32) (x5 : Vec F S1x128 .f32) : Vec F S2x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 hc1 x0 x1 x2 x3 x4 x5).2.1)

/-- The case's pieces for the scratch cover it. -/
theorem scover0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : cond0_0 i) (hc1 : ¬cond0_1 i)
    (x0 x1 : Vec F S2000x128 .f32) (x2 : Vec F S128x128 .f32) (x3 : Vec F S1x128 .f32) (x4 : Vec F S128x128 .f32) (x5 : Vec F S1x128 .f32) (y : S2x128.Idx) :
    ∃ pc ∈ (kernelRun0_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4 x5).2.2.1 S2x128.size (by sl_kernel_rfl) y

/-- What the case leaves in the scratch. -/
def sout0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : cond0_0 i) (hc1 : ¬cond0_1 i)
    (x0 x1 : Vec F S2000x128 .f32) (x2 : Vec F S128x128 .f32) (x3 : Vec F S1x128 .f32) (x4 : Vec F S128x128 .f32) (x5 : Vec F S1x128 .f32) : Vec F S2x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3 x4 x5).2.2.1)

/-- In the middle case the pieces stored into the perceptron output's buffer tile it, so they cover it. -/
theorem cover0_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : ¬cond0_1 i)
    (x0 x1 : Vec F S2000x128 .f32) (x2 : Vec F S128x128 .f32) (x3 : Vec F S1x128 .f32) (x4 : Vec F S128x128 .f32) (x5 : Vec F S1x128 .f32) (xs0 : Vec F S2x128 .f32) (y : S2000x128.Idx) :
    ∃ pc ∈ (kernelRun0_B c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 x5 xs0).1 S2000x128.size (by sl_kernel_rfl) y

/-- What the case leaves in the perceptron output's buffer: its pieces read back. -/
def out0_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : ¬cond0_1 i)
    (x0 x1 : Vec F S2000x128 .f32) (x2 : Vec F S128x128 .f32) (x3 : Vec F S1x128 .f32) (x4 : Vec F S128x128 .f32) (x5 : Vec F S1x128 .f32) (xs0 : Vec F S2x128 .f32) : Vec F S2000x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 hc1 x0 x1 x2 x3 x4 x5 xs0).1)

/-- What the case leaves in the statistics buffer (nothing is stored: a placeholder nothing consults, the window being idle and not written back there). -/
def out0_B_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : ¬cond0_1 i)
    (x0 x1 : Vec F S2000x128 .f32) (x2 : Vec F S128x128 .f32) (x3 : Vec F S1x128 .f32) (x4 : Vec F S128x128 .f32) (x5 : Vec F S1x128 .f32) (xs0 : Vec F S2x128 .f32) : Vec F S2x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 hc1 x0 x1 x2 x3 x4 x5 xs0).2.1)

/-- The case's pieces for the scratch cover it. -/
theorem scover0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : ¬cond0_1 i)
    (x0 x1 : Vec F S2000x128 .f32) (x2 : Vec F S128x128 .f32) (x3 : Vec F S1x128 .f32) (x4 : Vec F S128x128 .f32) (x5 : Vec F S1x128 .f32) (xs0 : Vec F S2x128 .f32) (y : S2x128.Idx) :
    ∃ pc ∈ (kernelRun0_B c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 x5 xs0).2.2.1 S1x128.size (by sl_kernel_rfl) y

/-- What the case leaves in the scratch. -/
def sout0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : ¬cond0_1 i)
    (x0 x1 : Vec F S2000x128 .f32) (x2 : Vec F S128x128 .f32) (x3 : Vec F S1x128 .f32) (x4 : Vec F S128x128 .f32) (x5 : Vec F S1x128 .f32) (xs0 : Vec F S2x128 .f32) : Vec F S2x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 hc1 x0 x1 x2 x3 x4 x5 xs0).2.2.1)

/-- In the last case the pieces stored into the perceptron output's buffer tile it, so they cover it. -/
theorem cover0_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : cond0_1 i)
    (x0 x1 : Vec F S2000x128 .f32) (x2 : Vec F S128x128 .f32) (x3 : Vec F S1x128 .f32) (x4 : Vec F S128x128 .f32) (x5 : Vec F S1x128 .f32) (xs0 : Vec F S2x128 .f32) (y : S2000x128.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0).1 S2000x128.size (by sl_kernel_rfl) y

/-- What the case leaves in the perceptron output's buffer: its pieces read back. -/
def out0_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : cond0_1 i)
    (x0 x1 : Vec F S2000x128 .f32) (x2 : Vec F S128x128 .f32) (x3 : Vec F S1x128 .f32) (x4 : Vec F S128x128 .f32) (x5 : Vec F S1x128 .f32) (xs0 : Vec F S2x128 .f32) : Vec F S2000x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 hc0 hc1 x0 x1 x2 x3 x4 x5 xs0).1)

/-- In the last case the piece copied into the statistics buffer covers it. -/
theorem cover0_C_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : cond0_1 i)
    (x0 x1 : Vec F S2000x128 .f32) (x2 : Vec F S128x128 .f32) (x3 : Vec F S1x128 .f32) (x4 : Vec F S128x128 .f32) (x5 : Vec F S1x128 .f32) (xs0 : Vec F S2x128 .f32) (y : S2x128.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0).2.1 S2x128.size (by sl_kernel_rfl) y

/-- What the case leaves in the statistics buffer: the copied scratch. -/
def out0_C_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : cond0_1 i)
    (x0 x1 : Vec F S2000x128 .f32) (x2 : Vec F S128x128 .f32) (x3 : Vec F S1x128 .f32) (x4 : Vec F S128x128 .f32) (x5 : Vec F S1x128 .f32) (xs0 : Vec F S2x128 .f32) : Vec F S2x128 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 hc0 hc1 x0 x1 x2 x3 x4 x5 xs0).2.1)

/-- The case's pieces for the scratch cover it. -/
theorem scover0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : cond0_1 i)
    (x0 x1 : Vec F S2000x128 .f32) (x2 : Vec F S128x128 .f32) (x3 : Vec F S1x128 .f32) (x4 : Vec F S128x128 .f32) (x5 : Vec F S1x128 .f32) (xs0 : Vec F S2x128 .f32) (y : S2x128.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0).2.2.1 S1x128.size (by sl_kernel_rfl) y

/-- What the case leaves in the scratch. -/
def sout0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : cond0_1 i)
    (x0 x1 : Vec F S2000x128 .f32) (x2 : Vec F S128x128 .f32) (x3 : Vec F S1x128 .f32) (x4 : Vec F S128x128 .f32) (x5 : Vec F S1x128 .f32) (xs0 : Vec F S2x128 .f32) : Vec F S2x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x0 x1 x2 x3 x4 x5 xs0).2.2.1)

/-! ## What the buffers hold after each point -/

/-- After the body at position `n`: the perceptron output's staging buffer, the statistics output's, and the carried
    scratch. The first point is the first case; a later point is the middle or the last case run over the scratch the
    point before left. An assignment of the two conditions no point meets is no case. -/
def outsAt0 (c : Dev nD) : (n : ℕ) → n < cfg0.N → Vec F S2000x128 .f32 × Vec F S2x128 .f32 × Vec F S2x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 50 = 0 then
      if h1 : (n + 1) % 50 = 49 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 50 = 49 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)

/-- At a point of the first case. -/
theorem outsAt0_A (c : Dev nD) (t : Fin cfg0.N) (h0 : t.val % 50 = 0) (h1 : ¬t.val % 50 = 49) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

/-- At a point of the middle case: over what the point before left. -/
theorem outsAt0_B (c : Dev nD) (t : Fin cfg0.N) (h0 : ¬t.val % 50 = 0) (h1 : ¬t.val % 50 = 49) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point of the last case: over what the point before left. -/
theorem outsAt0_C (c : Dev nD) (t : Fin cfg0.N) (h0 : ¬t.val % 50 = 0) (h1 : t.val % 50 = 49) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the scratch carried between points -/

/-- Before position `n`: before the first point every scoped buffer the pipeline does not stage at anything; afterwards
    the scratch at what the point before left in it, the other region's staging buffers at anything, and the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Other0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ Other0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ Other0 c) ∗ (∃ r, prngReg c r)) := by
  cases n with
  | zero => exact absurd rfl hz
  | succ n => rfl

/-! ## The region's proof data -/

/-- The arrays as the region finds them; after the body at point `t` each input's buffer at its block and the two
    outputs' at `outsAt0`'s components; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point. The inputs' memrefs hold their blocks; the closed forms of the two conditions say which case
    the point is in; that case's run applies. The invariant hands the body the scratch at what the point before left
    (at anything at the first point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  by_cases h0 : t.val % 50 = 0
  · by_cases h1 : t.val % 50 = 49
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold out0_A_6 sout0_A_0; (try dsimp only)
      by_cases hz : t.val = 0
      · rw [PhiS_castSucc V c t, PhiS_zero V c _ _ hz, PhiA0_eq]
        iintro ⟨⟨⟨HS0, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 HO Hg]
        · isplitl [HS0 HO]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            iexact HO
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _)
        iexists _; iexact H7
      · exfalso; omega
  · by_cases h1 : t.val % 50 = 49
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [outsAt0_C V c t h0 h1]
      unfold out0_C_6 out0_C_7 sout0_C_0; (try dsimp only)
      by_cases hz : t.val = 0
      · exfalso; omega
      · rw [PhiS_castSucc V c t, PhiS_pos V c _ _ hz]
        iintro ⟨⟨⟨HS0, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 HO Hg]
        · isplitl [HS0 HO]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _)
            iexact HO
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold out0_B_6 sout0_B_0; (try dsimp only)
      by_cases hz : t.val = 0
      · exfalso; omega
      · rw [PhiS_castSucc V c t, PhiS_pos V c _ _ hz]
        iintro ⟨⟨⟨HS0, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 HO Hg]
        · isplitl [HS0 HO]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _)
            iexact HO
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _)
        iexists _; iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the entry form back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HO⟩, Hg⟩
  isplitl [HS0 HO]
  · isplitl [HS0]
    · iexists _; iexact HS0
    iexact HO
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end Cert.Kernel.Fr

end
-- ==== Proof.K.Reg1.lean ====
/-
  The second kernel region (the normalise-and-add-back kernel), at any float instance and at any contents `V` of the
  core's buffers when the region is entered.

  At grid point `t` the region stages rows `2000·t … 2000·t + 1999` of the perceptron's output `h` and of the features
  `x`, and the whole scale and shift rows; the body stores `h·scale + shift + x` (scale and shift broadcast down the
  rows) over the whole output block, which the pipeline writes back to rows `2000·t …` of the result. The body keeps
  nothing between points, so the region's invariant is only the buffers it never touches and the generator register.
-/
import proofs.«132064_j22196390986098_1_alg».proof.Proof.Gen.Kernel.Launch
import proofs.«132064_j22196390986098_1_alg».proof.Proof.Gen.Kernel.Skeleton
import proofs.«132064_j22196390986098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the elaborator recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or the
    block index has not moved since the fetch, for any proof data whose array is the entry contents and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output's buffer -/

/-- The whole 2000×128 block, and the whole 1×128 row. -/
abbrev rB1 : Rect S2000x128 := Rect.unit (s := S2000x128) ![0, 0] S2000x128.size inb_S2000x128_S2000x128_0_0
abbrev rR1 : Rect S1x128 := Rect.unit (s := S1x128) ![0, 0] S1x128.size inb_S1x128_S1x128_0_0

/-- The output's staging buffer after the body: one store of the whole block, `h·scale + shift + x` of the four
    input blocks (`x0` the block of `h`, `x1` of `x`, `x2` the scale row, `x3` the shift row). -/
def out1_4 (x0 x1 : Vec F S2000x128 .f32) (x2 x3 : Vec F S1x128 .f32) : Vec F S2000x128 .f32 :=
  View.canon [⟨rB1, k1_pay1 (View.ld x0 rB1) (View.ld x2 rR1) (View.ld x3 rR1) (View.ld x1 rB1)⟩]

/-- The one store covers the buffer. -/
theorem cover1_4 (p0 : Vec F S2000x128 .f32) (y : S2000x128.Idx) :
    ∃ pc ∈ ([⟨rB1, p0⟩] : List (View.Piece (Elt F) S2000x128 .f32)), y ∈ pc.1.set :=
  View.cover_of_tiled [⟨rB1, p0⟩] S2000x128.size (by rfl) y

/-! ## The body's triple -/

set_option maxHeartbeats 1000000 in
/-- On whole staging memrefs, the inputs' at contents `x0 … x3` and the output's at anything, the body runs to its
    continuation with the inputs as they were and the output at `out1_4` of them. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S2000x128 .f32) (harg5 : arg5.IsWhole)
    (x0 x1 : Vec F S2000x128 .f32) (x2 x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__bn_residual_kernel i arg1 harg1 arg2 harg2 arg3 harg3 arg4 harg4 arg5 harg5) K := by
  simp only [cc1__bn_residual_kernel_eq_skeleton]; unfold cc1__bn_residual_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The region's proof data -/

/-- The arrays as the region finds them; after the body at point `t` each input's buffer at its block and the
    output's at `out1_4` of the input blocks; the invariant the buffers the region never touches and the generator
    register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Run.lean ====
/-
  The whole program run: host operations, the first kernel region, host operations, the second kernel region.

  The core's unscoped buffers are followed from the launch memory through the four stretches: a host stretch leaves
  what its operations compute; a region leaves each of its arrays at what its write-backs fold to and every other
  buffer as entered. Each region is a segment entered from "every unscoped buffer at the boundary's contents, the
  generator register at some state, nothing owed" and left at the next boundary's; the first region's invariant
  carries its scratch accumulator between grid points, which enters and leaves as one more scoped buffer at anything.
  The conclusion reads EVERY unscoped buffer at the last boundary's contents, so it serves both the claim that the
  arguments end unchanged and the claim about the result's value.
-/
import proofs.«132064_j22196390986098_1_alg».proof.Proof.K.Reg0
import proofs.«132064_j22196390986098_1_alg».proof.Proof.K.Reg1
import proofs.«132064_j22196390986098_1_alg».proof.Proof.Gen.Kernel.Regions

-- membership in a rectangle of 2000 rows: the elaborator recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => m ((c : Dev nD), b)
/-- After the first host stretch (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- An input window's array leaves the first region as it entered. -/
theorem W2_in0 (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W4_in1 (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### The arguments end as launched: no host operation writes one, and a region either reads it through an input
    window or bypasses it -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_in1 m c 1 rfl
    _ = W2 m c (Proc.devRef .tc main_arg0) := StableHlo.after_of_writes_sub hostOps1 _ hostOps1_writes (by decide)
    _ = W1 m c (Proc.devRef .tc main_arg0) := W2_in0 m c 1 rfl
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_in0 m c 2 rfl
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_in0 m c 4 rfl
    _ = W0 m c (Proc.devRef .tc main_arg4) := StableHlo.after_of_writes_sub hostOps0 _ hostOps0_writes (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

/-! ## The proof data family and the thread state -/

abbrev adm : (p : Fin 2) → (pcfgs (F := F) p).Adm := fun p => (cfgs p).toPCfg_adm
/-- Every region's proof data at its entry contents: a literal match, so that a numeral index reduces. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

-- unification with the pinned configuration may unfold plain definitions in a metavariable's type
set_option backward.isDefEq.respectTransparency.types false in
/-- REGION 0 over the thread state: entered from every unscoped buffer at `W1`, left at `W2`. Its arrays
    are split out of the unscoped buffers and put back at the exit contents; the generator register goes into the
    region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (V1 m) c)
    unfold Pipeline.ΦA
    iintro ⟨Hp, -, Hr⟩
    isplitl [Hr]; · iexact Hr
    iexact Hp
  hout c := by
    refine (hout0 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- REGION 1 over the thread state: entered from every unscoped buffer at `W3`, left at `W4`. Its arrays
    are split out of the unscoped buffers and put back at the exit contents; the generator register goes into the
    region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

-- the launch theorem's implicit arguments are found by unifying its conclusion with this one
set_option backward.isDefEq.respectTransparency.types false in
/-- From any memory with zero counters, every weakly fair execution of the program terminates, nothing faulting, and
    every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The eight argument arrays end as launched. -/
theorem args_kept (s : MemSt nD τ sig (Elt F)) (c : Dev nD)
    (h : ∀ b ∈ Pipeline.ucRefs τ sig, s.mem (((c : Thread nD τ)).1, b) = W4 m c b) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7) :=
  ⟨(h _ (mem_uc main_arg0 (by decide))).trans (W4_main_arg0 m c),
    (h _ (mem_uc main_arg1 (by decide))).trans (W4_main_arg1 m c),
    (h _ (mem_uc main_arg2 (by decide))).trans (W4_main_arg2 m c),
    (h _ (mem_uc main_arg3 (by decide))).trans (W4_main_arg3 m c),
    (h _ (mem_uc main_arg4 (by decide))).trans (W4_main_arg4 m c),
    (h _ (mem_uc main_arg5 (by decide))).trans (W4_main_arg5 m c),
    (h _ (mem_uc main_arg6 (by decide))).trans (W4_main_arg6 m c),
    (h _ (mem_uc main_arg7 (by decide))).trans (W4_main_arg7 m c)⟩

/-- THE FRAME, at any float instance: the program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => args_kept m r.2 c (h c)) (run_all m ρ)

/-- The result buffer ends at what the second region's write-backs fold to. -/
theorem result_at (s : MemSt nD τ sig (Elt F)) (c : Dev nD)
    (h : ∀ b ∈ Pipeline.ucRefs τ sig, s.mem (((c : Thread nD τ)).1, b) = W4 m c b) :
    s.mem ((c.tc : Thread nD τ).loc main_v35) = (dat1 (V3 m) c).arrAt 4 cfg1.N :=
  (h _ (mem_uc main_v35 (by decide))).trans (W4_arr m c 4)

end Cert.Kernel.Fr

end
-- ==== Proof.KI.Reg0Runs.lean ====
/-
  The first kernel region (perceptron and column statistics): what its three control cases share.

  The body at grid point `t` (50 points, `t = 0 … 49`) resets a 2×128 scratch to zero when `t = 0`, computes the
  perceptron's output for rows `2000·t …` and stores it over the whole output block, adds the block's column sums and
  column sums of squares into rows 0 and 1 of the scratch, and when `t = 49` copies the scratch to the statistics
  output. So a point is in one of three cases: first (reset, no copy), middle (neither), last (copy, no reset); the
  statistics window is idle, and not written back, except at the last point.
-/
import proofs.«132064_j22196390986098_1_alg».proof.Proof.Gen.KernelIdeal.Launch
import proofs.«132064_j22196390986098_1_alg».proof.Proof.Gen.KernelIdeal.Skeleton
import proofs.«132064_j22196390986098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the elaborator recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or the
    block index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- "This is the first point": the reset's condition, as the body computes it from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

/-- "This is the last point": the copy-out's condition. -/
abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- At the first point the body stores nothing into the statistics window, and the pipeline does not write it back. -/
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
/-- Nor at a middle point. -/
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
/-- At the last point it is live. -/
theorem liveAt0_7_C : ∀ t : Fin cfg0.N, ¬cond0_0 (grid0.coords t) → cond0_1 (grid0.coords t) → cfg0.idle 7 (grid0.coords t) = false := by decide +kernel

/-! ## The memrefs the body is called with -/

/-- One staging buffer of each output window, through which its contents are stated. -/
abbrev VO0_6 : View sig .tc .vmem S2000x128 .f32 := (Memref.whole cc0_stg6_0 : Memref sig .tc .vmem S2000x128 .f32).view
abbrev VO0_7 : View sig .tc .vmem S2x128 .f32 := (Memref.whole cc0_stg7_0 : Memref sig .tc .vmem S2x128 .f32).view
/-- Each window's current staging memref at point `t`, and its wholeness. -/
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x128 .f32 := win0_7.stage (cfg0.slots t 7)
abbrev hs0_7 (t : Fin cfg0.N) : (ms0_7 t).IsWhole := hstage0_7 ((cfg0.slots t 7).cast nbuf0_7)
/-- The accumulator scratch the kernel carries between points: a whole scoped buffer of its own. -/
abbrev scM0_0 : Memref sig .tc .vmem S2x128 .f32 := Memref.whole cc0_scratch0
abbrev VS0_0 : View sig .tc .vmem S2x128 .f32 := scM0_0.view

/-- The other region's staging buffers: scoped buffers this region never touches, each whole at some contents. -/
def Other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The invariant before the first point, with the scratch as a memref owned at some contents: the scratch, the
    other region's staging buffers, the generator register. -/
theorem PhiA0_eq (c : Dev nD) :
    (Pipeline.ΦA spec0 c : sProp 𝕄)
      = iprop(iprop((∃ d, owns (c : Thread nD τ) scM0_0 fullShare d) ∗ Other0 c) ∗ (∃ r, prngReg c r)) := by
  unfold Pipeline.ΦA Other0; rw [scopedRest0_eq]; simp only [scM0_0, owns_whole]; try rfl

end Cert.KernelIdeal.Fr

end
-- ==== Proof.KI.Reg0RunA.lean ====
/-
  The first kernel region's body run whole in its FIRST case (the point resets the scratch and does not copy it out).
  The pieces each buffer ends with are found by the run itself (they are the witness); what they say is read later.
-/
import proofs.«132064_j22196390986098_1_alg».proof.Proof.KI.Reg0Runs

-- membership in a rectangle of 2000 rows: the elaborator recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1000000 in
/-- On whole staging memrefs, the inputs' at contents `x0 … x5`, the perceptron output's at anything, the statistics
    output's at contents `xi7` handed back untouched, the scratch at anything: the body runs to its
    continuation with the inputs as they were and each buffer it stored into with its pieces written. -/
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : cond0_0 i) (hc1 : ¬cond0_1 i)
    (x0 x1 : Vec F S2000x128 .f32) (x2 : Vec F S128x128 .f32) (x3 : Vec F S1x128 .f32) (x4 : Vec F S128x128 .f32) (x5 : Vec F S1x128 .f32) :
    Σ' (L6 : List (View.Piece (Elt F) S2000x128 .f32)) (L7 : List (View.Piece (Elt F) S2x128 .f32)), { LS0 : List (View.Piece (Elt F) S2x128 .f32) //
      ∀ (xi7 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

end Cert.KernelIdeal.Fr

end
-- ==== Proof.KI.Reg0RunB.lean ====
/-
  The first kernel region's body run whole in its MIDDLE case (no reset, no copy-out).
  The pieces each buffer ends with are found by the run itself (they are the witness); what they say is read later.
-/
import proofs.«132064_j22196390986098_1_alg».proof.Proof.KI.Reg0RunA

-- membership in a rectangle of 2000 rows: the elaborator recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1000000 in
/-- On whole staging memrefs, the inputs' at contents `x0 … x5`, the perceptron output's at anything, the statistics
    output's at contents `xi7` handed back untouched, the scratch at the contents `xs0` the point before left: the body runs to its
    continuation with the inputs as they were and each buffer it stored into with its pieces written. -/
noncomputable def kernelRun0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : ¬cond0_1 i)
    (x0 x1 : Vec F S2000x128 .f32) (x2 : Vec F S128x128 .f32) (x3 : Vec F S1x128 .f32) (x4 : Vec F S128x128 .f32) (x5 : Vec F S1x128 .f32) (xs0 : Vec F S2x128 .f32) :
    Σ' (L6 : List (View.Piece (Elt F) S2000x128 .f32)) (L7 : List (View.Piece (Elt F) S2x128 .f32)), { LS0 : List (View.Piece (Elt F) S2x128 .f32) //
      ∀ (xi7 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

end Cert.KernelIdeal.Fr

end
-- ==== Proof.KI.Reg0RunC.lean ====
/-
  The first kernel region's body run whole in its LAST case (no reset; the scratch is copied to the statistics output).
  The pieces each buffer ends with are found by the run itself (they are the witness); what they say is read later.
-/
import proofs.«132064_j22196390986098_1_alg».proof.Proof.KI.Reg0RunB

-- membership in a rectangle of 2000 rows: the elaborator recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 1000000 in
/-- On whole staging memrefs, the inputs' at contents `x0 … x5`, the perceptron output's at anything, the statistics
    output's at anything, the scratch at the contents `xs0` the point before left: the body runs to its
    continuation with the inputs as they were and each buffer it stored into with its pieces written. -/
noncomputable def kernelRun0_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : cond0_1 i)
    (x0 x1 : Vec F S2000x128 .f32) (x2 : Vec F S128x128 .f32) (x3 : Vec F S1x128 .f32) (x4 : Vec F S128x128 .f32) (x5 : Vec F S1x128 .f32) (xs0 : Vec F S2x128 .f32) :
    Σ' (L6 : List (View.Piece (Elt F) S2000x128 .f32)) (L7 : List (View.Piece (Elt F) S2x128 .f32)), { LS0 : List (View.Piece (Elt F) S2x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.KernelIdeal.Fr

end
-- ==== Proof.KI.Reg0.lean ====
/-
  The first kernel region (perceptron and column statistics): what each control case leaves, what the output buffers
  and the carried scratch hold after every grid point (by recursion on the point: the first point starts the scratch
  from zero, every later one adds to what the point before left), the region's invariant (the scratch at exactly those
  contents between points), its proof data and its body obligation.
-/
import proofs.«132064_j22196390986098_1_alg».proof.Proof.KI.Reg0RunC

-- membership in a rectangle of 2000 rows: the elaborator recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- In the first case the pieces stored into the perceptron output's buffer tile it, so they cover it. -/
theorem cover0_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : cond0_0 i) (hc1 : ¬cond0_1 i)
    (x0 x1 : Vec F S2000x128 .f32) (x2 : Vec F S128x128 .f32) (x3 : Vec F S1x128 .f32) (x4 : Vec F S128x128 .f32) (x5 : Vec F S1x128 .f32) (y : S2000x128.Idx) :
    ∃ pc ∈ (kernelRun0_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4 x5).1 S2000x128.size (by sl_kernel_rfl) y

/-- What the case leaves in the perceptron output's buffer: its pieces read back. -/
def out0_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : cond0_0 i) (hc1 : ¬cond0_1 i)
    (x0 x1 : Vec F S2000x128 .f32) (x2 : Vec F S128x128 .f32) (x3 : Vec F S1x128 .f32) (x4 : Vec F S128x128 .f32) (x5 : Vec F S1x128 .f32) : Vec F S2000x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 hc1 x0 x1 x2 x3 x4 x5).1)

/-- What the case leaves in the statistics buffer (nothing is stored: a placeholder nothing consults, the window being idle and not written back there). -/
def out0_A_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : cond0_0 i) (hc1 : ¬cond0_1 i)
    (x0 x1 : Vec F S2000x128 .f32) (x2 : Vec F S128x128 .f32) (x3 : Vec F S1x128 .f32) (x4 : Vec F S128x128 .f32) (x5 : Vec F S1x128 .f32) : Vec F S2x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 hc1 x0 x1 x2 x3 x4 x5).2.1)

/-- The case's pieces for the scratch cover it. -/
theorem scover0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : cond0_0 i) (hc1 : ¬cond0_1 i)
    (x0 x1 : Vec F S2000x128 .f32) (x2 : Vec F S128x128 .f32) (x3 : Vec F S1x128 .f32) (x4 : Vec F S128x128 .f32) (x5 : Vec F S1x128 .f32) (y : S2x128.Idx) :
    ∃ pc ∈ (kernelRun0_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4 x5).2.2.1 S2x128.size (by sl_kernel_rfl) y

/-- What the case leaves in the scratch. -/
def sout0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : cond0_0 i) (hc1 : ¬cond0_1 i)
    (x0 x1 : Vec F S2000x128 .f32) (x2 : Vec F S128x128 .f32) (x3 : Vec F S1x128 .f32) (x4 : Vec F S128x128 .f32) (x5 : Vec F S1x128 .f32) : Vec F S2x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3 x4 x5).2.2.1)

/-- In the middle case the pieces stored into the perceptron output's buffer tile it, so they cover it. -/
theorem cover0_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : ¬cond0_1 i)
    (x0 x1 : Vec F S2000x128 .f32) (x2 : Vec F S128x128 .f32) (x3 : Vec F S1x128 .f32) (x4 : Vec F S128x128 .f32) (x5 : Vec F S1x128 .f32) (xs0 : Vec F S2x128 .f32) (y : S2000x128.Idx) :
    ∃ pc ∈ (kernelRun0_B c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 x5 xs0).1 S2000x128.size (by sl_kernel_rfl) y

/-- What the case leaves in the perceptron output's buffer: its pieces read back. -/
def out0_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : ¬cond0_1 i)
    (x0 x1 : Vec F S2000x128 .f32) (x2 : Vec F S128x128 .f32) (x3 : Vec F S1x128 .f32) (x4 : Vec F S128x128 .f32) (x5 : Vec F S1x128 .f32) (xs0 : Vec F S2x128 .f32) : Vec F S2000x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 hc1 x0 x1 x2 x3 x4 x5 xs0).1)

/-- What the case leaves in the statistics buffer (nothing is stored: a placeholder nothing consults, the window being idle and not written back there). -/
def out0_B_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : ¬cond0_1 i)
    (x0 x1 : Vec F S2000x128 .f32) (x2 : Vec F S128x128 .f32) (x3 : Vec F S1x128 .f32) (x4 : Vec F S128x128 .f32) (x5 : Vec F S1x128 .f32) (xs0 : Vec F S2x128 .f32) : Vec F S2x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 hc1 x0 x1 x2 x3 x4 x5 xs0).2.1)

/-- The case's pieces for the scratch cover it. -/
theorem scover0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : ¬cond0_1 i)
    (x0 x1 : Vec F S2000x128 .f32) (x2 : Vec F S128x128 .f32) (x3 : Vec F S1x128 .f32) (x4 : Vec F S128x128 .f32) (x5 : Vec F S1x128 .f32) (xs0 : Vec F S2x128 .f32) (y : S2x128.Idx) :
    ∃ pc ∈ (kernelRun0_B c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 x5 xs0).2.2.1 S1x128.size (by sl_kernel_rfl) y

/-- What the case leaves in the scratch. -/
def sout0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : ¬cond0_1 i)
    (x0 x1 : Vec F S2000x128 .f32) (x2 : Vec F S128x128 .f32) (x3 : Vec F S1x128 .f32) (x4 : Vec F S128x128 .f32) (x5 : Vec F S1x128 .f32) (xs0 : Vec F S2x128 .f32) : Vec F S2x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 hc1 x0 x1 x2 x3 x4 x5 xs0).2.2.1)

/-- In the last case the pieces stored into the perceptron output's buffer tile it, so they cover it. -/
theorem cover0_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : cond0_1 i)
    (x0 x1 : Vec F S2000x128 .f32) (x2 : Vec F S128x128 .f32) (x3 : Vec F S1x128 .f32) (x4 : Vec F S128x128 .f32) (x5 : Vec F S1x128 .f32) (xs0 : Vec F S2x128 .f32) (y : S2000x128.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0).1 S2000x128.size (by sl_kernel_rfl) y

/-- What the case leaves in the perceptron output's buffer: its pieces read back. -/
def out0_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : cond0_1 i)
    (x0 x1 : Vec F S2000x128 .f32) (x2 : Vec F S128x128 .f32) (x3 : Vec F S1x128 .f32) (x4 : Vec F S128x128 .f32) (x5 : Vec F S1x128 .f32) (xs0 : Vec F S2x128 .f32) : Vec F S2000x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 hc0 hc1 x0 x1 x2 x3 x4 x5 xs0).1)

/-- In the last case the piece copied into the statistics buffer covers it. -/
theorem cover0_C_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : cond0_1 i)
    (x0 x1 : Vec F S2000x128 .f32) (x2 : Vec F S128x128 .f32) (x3 : Vec F S1x128 .f32) (x4 : Vec F S128x128 .f32) (x5 : Vec F S1x128 .f32) (xs0 : Vec F S2x128 .f32) (y : S2x128.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0).2.1 S2x128.size (by sl_kernel_rfl) y

/-- What the case leaves in the statistics buffer: the copied scratch. -/
def out0_C_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : cond0_1 i)
    (x0 x1 : Vec F S2000x128 .f32) (x2 : Vec F S128x128 .f32) (x3 : Vec F S1x128 .f32) (x4 : Vec F S128x128 .f32) (x5 : Vec F S1x128 .f32) (xs0 : Vec F S2x128 .f32) : Vec F S2x128 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 hc0 hc1 x0 x1 x2 x3 x4 x5 xs0).2.1)

/-- The case's pieces for the scratch cover it. -/
theorem scover0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : cond0_1 i)
    (x0 x1 : Vec F S2000x128 .f32) (x2 : Vec F S128x128 .f32) (x3 : Vec F S1x128 .f32) (x4 : Vec F S128x128 .f32) (x5 : Vec F S1x128 .f32) (xs0 : Vec F S2x128 .f32) (y : S2x128.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0).2.2.1 S1x128.size (by sl_kernel_rfl) y

/-- What the case leaves in the scratch. -/
def sout0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : cond0_1 i)
    (x0 x1 : Vec F S2000x128 .f32) (x2 : Vec F S128x128 .f32) (x3 : Vec F S1x128 .f32) (x4 : Vec F S128x128 .f32) (x5 : Vec F S1x128 .f32) (xs0 : Vec F S2x128 .f32) : Vec F S2x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x0 x1 x2 x3 x4 x5 xs0).2.2.1)

/-! ## What the buffers hold after each point -/

/-- After the body at position `n`: the perceptron output's staging buffer, the statistics output's, and the carried
    scratch. The first point is the first case; a later point is the middle or the last case run over the scratch the
    point before left. An assignment of the two conditions no point meets is no case. -/
def outsAt0 (c : Dev nD) : (n : ℕ) → n < cfg0.N → Vec F S2000x128 .f32 × Vec F S2x128 .f32 × Vec F S2x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 50 = 0 then
      if h1 : (n + 1) % 50 = 49 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 50 = 49 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)

/-- At a point of the first case. -/
theorem outsAt0_A (c : Dev nD) (t : Fin cfg0.N) (h0 : t.val % 50 = 0) (h1 : ¬t.val % 50 = 49) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

/-- At a point of the middle case: over what the point before left. -/
theorem outsAt0_B (c : Dev nD) (t : Fin cfg0.N) (h0 : ¬t.val % 50 = 0) (h1 : ¬t.val % 50 = 49) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point of the last case: over what the point before left. -/
theorem outsAt0_C (c : Dev nD) (t : Fin cfg0.N) (h0 : ¬t.val % 50 = 0) (h1 : t.val % 50 = 49) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the scratch carried between points -/

/-- Before position `n`: before the first point every scoped buffer the pipeline does not stage at anything; afterwards
    the scratch at what the point before left in it, the other region's staging buffers at anything, and the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Other0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ Other0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ Other0 c) ∗ (∃ r, prngReg c r)) := by
  cases n with
  | zero => exact absurd rfl hz
  | succ n => rfl

/-! ## The region's proof data -/

/-- The arrays as the region finds them; after the body at point `t` each input's buffer at its block and the two
    outputs' at `outsAt0`'s components; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point. The inputs' memrefs hold their blocks; the closed forms of the two conditions say which case
    the point is in; that case's run applies. The invariant hands the body the scratch at what the point before left
    (at anything at the first point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  by_cases h0 : t.val % 50 = 0
  · by_cases h1 : t.val % 50 = 49
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold out0_A_6 sout0_A_0; (try dsimp only)
      by_cases hz : t.val = 0
      · rw [PhiS_castSucc V c t, PhiS_zero V c _ _ hz, PhiA0_eq]
        iintro ⟨⟨⟨HS0, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 HO Hg]
        · isplitl [HS0 HO]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            iexact HO
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _)
        iexists _; iexact H7
      · exfalso; omega
  · by_cases h1 : t.val % 50 = 49
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [outsAt0_C V c t h0 h1]
      unfold out0_C_6 out0_C_7 sout0_C_0; (try dsimp only)
      by_cases hz : t.val = 0
      · exfalso; omega
      · rw [PhiS_castSucc V c t, PhiS_pos V c _ _ hz]
        iintro ⟨⟨⟨HS0, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 HO Hg]
        · isplitl [HS0 HO]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _)
            iexact HO
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold out0_B_6 sout0_B_0; (try dsimp only)
      by_cases hz : t.val = 0
      · exfalso; omega
      · rw [PhiS_castSucc V c t, PhiS_pos V c _ _ hz]
        iintro ⟨⟨⟨HS0, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 HO Hg]
        · isplitl [HS0 HO]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _)
            iexact HO
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _)
        iexists _; iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the entry form back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HO⟩, Hg⟩
  isplitl [HS0 HO]
  · isplitl [HS0]
    · iexists _; iexact HS0
    iexact HO
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end Cert.KernelIdeal.Fr

end
-- ==== Proof.Spec.lean ====
/-
  The mathematics of the layer, over plain index types (rows `Fin 100000`, features `Fin 128`) and extended reals.

  Both programs compute the same two-layer perceptron `h = max((a + x)·W₁ + b₁, 0)·W₂ + b₂` of the aggregated
  features `a` and the features `x`, then normalise each feature column by its mean and variance over the rows,
  scale by `γ`, shift by `β` and add `x` back. They differ in how the normalisation is arranged:
  * one takes the variance as the mean of squares less the squared mean, folds `γ` and the inverse deviation into one
    scale `s = γ·r` and one shift `β − μ·s`, and returns `h·s + (β − μ·s) + x`;
  * the other takes the variance as the mean of squared deviations and returns `(h − μ)·r·γ + β + x`.
  Over the reals the two variances are one number (`Σ(h−μ)² = Σh² − N·μ²` when `μ = Σh/N`) and the two affine forms are
  one by distributivity; on the extended reals both steps need every entry of `h`, `γ` and `β` to be a real number.
-/
import Idealize.ShloMosaic.PureOps.Ideal
import Idealize.ShloMosaic.PureOps.Ideal.Laws
import Idealize.ShloMosaic.Lib.ValueIdx

noncomputable section

namespace Cert.Spec

open Idealize.ShloMosaic

/-- The number of rows (nodes) and of features. -/
abbrev NR : ℕ := 100000
abbrev ND : ℕ := 128

/-- The three array shapes, as literals (each program spells the same literals under its own names). -/
abbrev SMat : Shape := ⟨2, ![100000, 128]⟩
abbrev SSq : Shape := ⟨2, ![128, 128]⟩
abbrev SVec : Shape := ⟨1, ![128]⟩

/-- An array read by row and feature, a square matrix by its two coordinates, a vector by its one. -/
def mat (v : SMat.Idx → EReal) : Fin NR → Fin ND → EReal := fun i j => v (ValueIdx.ix2 i j)
def sqm (w : SSq.Idx → EReal) : Fin ND → Fin ND → EReal := fun l k => w (ValueIdx.ix2 l k)
def vec (b : SVec.Idx → EReal) : Fin ND → EReal := fun k => b (ValueIdx.ix1 k)

/-- An extended real that is a real number (neither infinity). -/
def IsReal (v : EReal) : Prop := ∃ r : ℝ, v = (r : EReal)

/-- The row count as the float both programs divide by (the pattern of `100000.0`). -/
def Nf : EReal := Ideal.ofBits .f32 0x47C35000#32
/-- The variance's guard (the pattern of `1e-5` rounded to single precision). -/
def eps : EReal := Ideal.ofBits .f32 0x3727C5AC#32

/-- The hidden layer: `max(Σₗ (a + x)[i,l]·W₁[l,k] + b₁[k], 0)`. -/
def hidden (a x : Fin NR → Fin ND → EReal) (W1 : Fin ND → Fin ND → EReal) (b1 : Fin ND → EReal)
    (i : Fin NR) (k : Fin ND) : EReal :=
  max ((∑ l : Fin ND, (a i l + x i l) * W1 l k) + b1 k) 0

/-- The perceptron's output: `Σₖ hidden[i,k]·W₂[k,j] + b₂[j]`. -/
def mlp (a x : Fin NR → Fin ND → EReal) (W1 : Fin ND → Fin ND → EReal) (b1 : Fin ND → EReal)
    (W2 : Fin ND → Fin ND → EReal) (b2 : Fin ND → EReal) (i : Fin NR) (j : Fin ND) : EReal :=
  (∑ k : Fin ND, hidden a x W1 b1 i k * W2 k j) + b2 j

/-- A column's sum over all rows. -/
def colSum (h : Fin NR → Fin ND → EReal) (j : Fin ND) : EReal := ∑ i : Fin NR, h i j

/-- A column's mean, as both programs compute it: the sum divided by the row count. -/
def mean (h : Fin NR → Fin ND → EReal) (j : Fin ND) : EReal := Ideal.div (colSum h j) Nf

/-- The variance as the mean of squares less the squared mean. -/
def varK (h : Fin NR → Fin ND → EReal) (j : Fin ND) : EReal :=
  Ideal.div (colSum (fun i j => h i j * h i j) j) Nf - mean h j * mean h j

/-- The variance as the mean of squared deviations. -/
def varR (h : Fin NR → Fin ND → EReal) (j : Fin ND) : EReal :=
  Ideal.div (colSum (fun i j => (h i j - mean h j) * (h i j - mean h j)) j) Nf

/-- The folded scale `γ·rsqrt(var + ε)` and shift `β − μ·scale`. -/
def scaleK (h : Fin NR → Fin ND → EReal) (γ : Fin ND → EReal) (j : Fin ND) : EReal :=
  γ j * Ideal.rsqrt (varK h j + eps)
def shiftK (h : Fin NR → Fin ND → EReal) (γ β : Fin ND → EReal) (j : Fin ND) : EReal :=
  β j - mean h j * scaleK h γ j

/-- The result in the folded arrangement: `h·scale + shift + x`. -/
def outK (h x : Fin NR → Fin ND → EReal) (γ β : Fin ND → EReal) (i : Fin NR) (j : Fin ND) : EReal :=
  (h i j * scaleK h γ j + shiftK h γ β j) + x i j

/-- The result in the textbook arrangement: `(h − μ)·rsqrt(var + ε)·γ + β + x`. -/
def outR (h x : Fin NR → Fin ND → EReal) (γ β : Fin ND → EReal) (i : Fin NR) (j : Fin ND) : EReal :=
  (((h i j - mean h j) * Ideal.rsqrt (varR h j + eps)) * γ j + β j) + x i j

/-! ## Real-valuedness is kept by the operations used -/

theorem IsReal.add {u v : EReal} (hu : IsReal u) (hv : IsReal v) : IsReal (u + v) := by
  obtain ⟨a, rfl⟩ := hu
  obtain ⟨b, rfl⟩ := hv
  exact ⟨a + b, (EReal.coe_add a b).symm⟩
theorem IsReal.mul {u v : EReal} (hu : IsReal u) (hv : IsReal v) : IsReal (u * v) := by
  obtain ⟨a, rfl⟩ := hu
  obtain ⟨b, rfl⟩ := hv
  exact ⟨a * b, (EReal.coe_mul a b).symm⟩
theorem IsReal.max_zero {u : EReal} (hu : IsReal u) : IsReal (max u 0) := by
  rcases le_total u 0 with h | h
  · rw [max_eq_right h]; exact ⟨0, rfl⟩
  · rw [max_eq_left h]; exact hu
theorem IsReal.sum {ι : Type} (s : Finset ι) (f : ι → EReal) (hf : ∀ i ∈ s, IsReal (f i)) : IsReal (∑ i ∈ s, f i) := by
  classical
  induction s using Finset.induction_on with
  | empty => rw [Finset.sum_empty]; exact ⟨0, rfl⟩
  | insert a t ha ih =>
    rw [Finset.sum_insert ha]
    exact IsReal.add (hf a (Finset.mem_insert_self a t))
      (ih (fun i hi => hf i (Finset.mem_insert_of_mem hi)))
theorem isReal_zero : IsReal 0 := ⟨0, rfl⟩

/-- The perceptron's output is real when all its inputs are. -/
theorem mlp_isReal {a x : Fin NR → Fin ND → EReal} {W1 W2 : Fin ND → Fin ND → EReal} {b1 b2 : Fin ND → EReal}
    (ha : ∀ i l, IsReal (a i l)) (hx : ∀ i l, IsReal (x i l)) (hW1 : ∀ l k, IsReal (W1 l k)) (hb1 : ∀ k, IsReal (b1 k))
    (hW2 : ∀ k j, IsReal (W2 k j)) (hb2 : ∀ j, IsReal (b2 j)) (i : Fin NR) (j : Fin ND) :
    IsReal (mlp a x W1 b1 W2 b2 i j) := by
  -- each hidden entry is the maximum with zero of a finite sum of products of reals plus a real
  have hhid : ∀ k, IsReal (hidden a x W1 b1 i k) := fun k =>
    IsReal.max_zero (IsReal.add
      (IsReal.sum _ _ (fun l _ => IsReal.mul (IsReal.add (ha i l) (hx i l)) (hW1 l k))) (hb1 k))
  exact IsReal.add (IsReal.sum _ _ (fun k _ => IsReal.mul (hhid k) (hW2 k j))) (hb2 j)

/-! ## The two constants -/

/-- The divisor's pattern denotes the real `100000`, the number of rows. -/
theorem Nf_eq : Nf = ((100000 : ℝ) : EReal) := by
  -- exponent field 143, significand 12800000: the value is 12800000 · 2⁻⁷
  simp [Nf, Ideal.ofBits, Ideal.ieee, -EReal.coe_mul]; norm_num
/-- The guard's pattern denotes a positive real. -/
theorem eps_pos : ∃ e : ℝ, 0 < e ∧ eps = (e : EReal) := by
  -- exponent field 110, significand 10995116: the value is 10995116 · 2⁻⁴⁰
  refine ⟨(10995116 : ℝ) * (2 : ℝ) ^ (-40 : Int), by positivity, ?_⟩
  simp [eps, Ideal.ofBits, Ideal.ieee, -EReal.coe_mul]

/-! ## The law joining the two arrangements -/

/-- A finite sum of coerced reals is the coercion of the real sum. -/
private theorem coe_sum {ι : Type} (s : Finset ι) (f : ι → ℝ) :
    (∑ i ∈ s, ((f i : ℝ) : EReal)) = ((∑ i ∈ s, f i : ℝ) : EReal) := by
  classical
  induction s using Finset.induction_on with
  | empty => rw [Finset.sum_empty, Finset.sum_empty]; rfl
  | insert a t ha ih => rw [Finset.sum_insert ha, Finset.sum_insert ha, ih, EReal.coe_add]

/-- The real column mean, mean of squares and mean of squared deviations of a real array. -/
private def colMean (H : Fin NR → Fin ND → ℝ) (j : Fin ND) : ℝ := (∑ i, H i j) * (1 / 100000)
private def colMeanSq (H : Fin NR → Fin ND → ℝ) (j : Fin ND) : ℝ := (∑ i, H i j * H i j) * (1 / 100000)
private def colVar (H : Fin NR → Fin ND → ℝ) (j : Fin ND) : ℝ :=
  (∑ i, (H i j - colMean H j) * (H i j - colMean H j)) * (1 / 100000)

/-- `Σ(h−μ)² / N = Σh² / N − μ²` when `μ = Σh / N` and there are `N` rows. -/
private theorem colVar_eq (H : Fin NR → Fin ND → ℝ) (j : Fin ND) :
    colVar H j = colMeanSq H j - colMean H j * colMean H j := by
  have hexp : ∀ i, (H i j - colMean H j) * (H i j - colMean H j)
      = H i j * H i j - 2 * colMean H j * H i j + colMean H j * colMean H j := fun i => by ring
  have hcard : ((Finset.univ : Finset (Fin NR)).card : ℝ) = 100000 := by
    rw [Finset.card_univ, Fintype.card_fin]; norm_num
  unfold colVar colMeanSq
  simp only [hexp]
  rw [Finset.sum_add_distrib, Finset.sum_sub_distrib, ← Finset.mul_sum, Finset.sum_const, nsmul_eq_mul, hcard]
  have hS : (∑ i, H i j) = 100000 * colMean H j := by unfold colMean; ring
  rw [hS]
  ring

private theorem colVar_nonneg (H : Fin NR → Fin ND → ℝ) (j : Fin ND) : 0 ≤ colVar H j :=
  mul_nonneg (Finset.sum_nonneg (fun _ _ => mul_self_nonneg _)) (by norm_num)

/-- The mean and both variances of an array of reals are the coercions of their real counterparts. -/
private theorem mean_coe (H : Fin NR → Fin ND → ℝ) (j : Fin ND) :
    mean (fun i j => (H i j : EReal)) j = (colMean H j : EReal) := by
  simp only [mean, colSum]
  rw [Nf_eq, Ideal.div_coe (by norm_num), coe_sum, ← EReal.coe_mul]
  rfl

private theorem varK_coe (H : Fin NR → Fin ND → ℝ) (j : Fin ND) :
    varK (fun i j => (H i j : EReal)) j = ((colMeanSq H j - colMean H j * colMean H j : ℝ) : EReal) := by
  simp only [varK, colSum]
  rw [mean_coe, Nf_eq, Ideal.div_coe (by norm_num)]
  simp only [← EReal.coe_mul]
  rw [coe_sum, ← EReal.coe_mul, ← EReal.coe_sub]
  rfl

private theorem varR_coe (H : Fin NR → Fin ND → ℝ) (j : Fin ND) :
    varR (fun i j => (H i j : EReal)) j = (colVar H j : EReal) := by
  simp only [varR, colSum]
  rw [mean_coe, Nf_eq, Ideal.div_coe (by norm_num)]
  simp only [← EReal.coe_sub, ← EReal.coe_mul]
  rw [coe_sum, ← EReal.coe_mul]
  rfl

/-- With every entry of `h`, `γ` and `β` real, the folded arrangement and the textbook one are the same extended
    real at every index (`x` may be anything: it is added last on both sides). -/
theorem outK_eq_outR {h x : Fin NR → Fin ND → EReal} {γ β : Fin ND → EReal}
    (hh : ∀ i j, IsReal (h i j)) (hγ : ∀ j, IsReal (γ j)) (hβ : ∀ j, IsReal (β j)) (i : Fin NR) (j : Fin ND) :
    outK h x γ β i j = outR h x γ β i j := by
  -- real witnesses for every entry
  choose H hH using hh
  choose G hG using hγ
  choose B hB using hβ
  obtain rfl : h = fun i j => (H i j : EReal) := funext fun i => funext fun j => hH i j
  obtain rfl : γ = fun j => (G j : EReal) := funext hG
  obtain rfl : β = fun j => (B j : EReal) := funext hB
  obtain ⟨e, he, hε⟩ := eps_pos
  -- the two variances are one real
  have hv : colMeanSq H j - colMean H j * colMean H j = colVar H j := (colVar_eq H j).symm
  -- that real is a mean of squares, so with the guard it is positive
  have hpos : 0 < colVar H j + e := add_pos_of_nonneg_of_pos (colVar_nonneg H j) he
  have hr : Ideal.rsqrt ((colVar H j + e : ℝ) : EReal) = (((Real.sqrt (colVar H j + e))⁻¹ : ℝ) : EReal) := by
    rw [Ideal.rsqrt_coe, if_neg (not_lt.mpr hpos.le), if_neg hpos.ne']
  -- `x i j` is added last on both sides
  unfold outK outR
  refine congrArg (· + x i j) ?_
  unfold shiftK scaleK
  rw [mean_coe, varK_coe, varR_coe, hv, hε, ← EReal.coe_add, hr]
  simp only [← EReal.coe_mul, ← EReal.coe_sub, ← EReal.coe_add]
  rw [EReal.coe_eq_coe_iff]
  ring

end Cert.Spec

end
-- ==== Proof.SpecRow.lean ====
/-
  The perceptron one row at a time: its value at row `i` depends on the aggregated features and the features only
  through their rows `i`, which is what lets a kernel compute it block of rows by block of rows.
-/
import proofs.«132064_j22196390986098_1_alg».proof.Proof.Spec

noncomputable section

namespace Cert.Spec

/-- The hidden layer of one row. -/
def hiddenRow (a x : Fin ND → EReal) (W1 : Fin ND → Fin ND → EReal) (b1 : Fin ND → EReal) (k : Fin ND) : EReal :=
  max ((∑ l : Fin ND, (a l + x l) * W1 l k) + b1 k) 0

/-- The perceptron's output for one row. -/
def mlpRow (a x : Fin ND → EReal) (W1 : Fin ND → Fin ND → EReal) (b1 : Fin ND → EReal)
    (W2 : Fin ND → Fin ND → EReal) (b2 : Fin ND → EReal) (j : Fin ND) : EReal :=
  (∑ k : Fin ND, hiddenRow a x W1 b1 k * W2 k j) + b2 j

/-- The perceptron at row `i` is the row function of the two rows `i`. -/
theorem mlp_eq_row (a x : Fin NR → Fin ND → EReal) (W1 : Fin ND → Fin ND → EReal) (b1 : Fin ND → EReal)
    (W2 : Fin ND → Fin ND → EReal) (b2 : Fin ND → EReal) (i : Fin NR) (j : Fin ND) :
    mlp a x W1 b1 W2 b2 i j = mlpRow (a i) (x i) W1 b1 W2 b2 j := rfl

end Cert.Spec

end
-- ==== Proof.KI.Pieces0.lean ====
/-
  What the first kernel region's three cases leave, read at an index over the extended reals: the perceptron output's
  buffer holds the block's perceptron values; the scratch's two rows hold the running column sums and column sums of
  squares (started from zero in the first case, added to what the point before left otherwise); in the last case the
  statistics buffer is a copy of the scratch.
-/
import proofs.«132064_j22196390986098_1_alg».proof.Proof.KI.Reg0
import proofs.«132064_j22196390986098_1_alg».proof.Proof.SpecRow
import Idealize.ShloMosaic.Lib.ValueIdx
import Idealize.ShloMosaic.Lib.ValueLayout
import Idealize.ShloMosaic.Lib.Pipeline.Value
import Idealize.ShloMosaic.PureOps.Ideal.Laws
import Idealize.ShloMosaic.Lib.WritesUnit

-- membership in a rectangle of 2000 rows: the elaborator recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec Idealize.ShloMosaic.ValueIdx

/-- A block of 2000 rows: the perceptron's value at the block's row `p`, feature `q`, from the six staged blocks
    (`x0` aggregated features, `x1` features, `x2` first weights, `x3` first bias row, `x4` second weights, `x5` second
    bias row). -/
def blkVal (x0 x1 : Vec Ideal S2000x128 .f32) (x2 : Vec Ideal S128x128 .f32) (x3 : Vec Ideal S1x128 .f32) (x4 : Vec Ideal S128x128 .f32) (x5 : Vec Ideal S1x128 .f32) (p : Fin 2000) (q : Fin 128) : EReal :=
  mlpRow (fun l => x0 (ix2 p l)) (fun l => x1 (ix2 p l)) (fun l k => x2 (ix2 l k)) (fun k => x3 (ix2 0 k))
    (fun k j => x4 (ix2 k j)) (fun j => x5 (ix2 0 j)) q

/-! # Helpers: the payloads at an index, rows of the scratch, the one-piece buffers -/

namespace Pieces0

/-! ## The block product at an index -/

/-- The left operand's index of the block product: the output's row, -/
theorem lhs_dot_0 (i : S2000x128.Idx) (k : dot_S2000x128_S128x128_S2000x128_1_0_0_1_n_n.contr.Idx) :
    (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- and the contraction coordinate. -/
theorem lhs_dot_1 (i : S2000x128.Idx) (k : dot_S2000x128_S128x128_S2000x128_1_0_0_1_n_n.contr.Idx) :
    (dot_S2000x128_S128x128_S2000x128_1_0_0_1_n_n.lhsIdx i k 1).val = (k ⟨0, by decide⟩).val :=
  dot_S2000x128_S128x128_S2000x128_1_0_0_1_n_n.lhsIdx_val_of_single rfl i k
/-- The right operand's index: the contraction coordinate, -/
theorem rhs_dot_0 (i : S2000x128.Idx) (k : dot_S2000x128_S128x128_S2000x128_1_0_0_1_n_n.contr.Idx) :
    (dot_S2000x128_S128x128_S2000x128_1_0_0_1_n_n.rhsIdx i k 0).val = (k ⟨0, by decide⟩).val :=
  dot_S2000x128_S128x128_S2000x128_1_0_0_1_n_n.rhsIdx_val_of_single rfl i k
/-- and the output's column. -/
theorem rhs_dot_1 (i : S2000x128.Idx) (k : dot_S2000x128_S128x128_S2000x128_1_0_0_1_n_n.contr.Idx) :
    (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block product into the zero accumulator, at row `p` and column `q`: the sum over the 128 contraction coordinates
    of the left operand's row `p` times the right operand's column `q`. -/
theorem matmul_dot_apply {φ₁ φ₂ : FTy} (a : FVec Ideal S2000x128 φ₁) (b : FVec Ideal S128x128 φ₂) (p : Fin 2000) (q : Fin 128) :
    matmul dot_S2000x128_S128x128_S2000x128_1_0_0_1_n_n none a b (constant S2000x128 .f32 0x00000000#32) (ix2 p q)
      = ∑ k : Fin 128, a (ix2 p k) * b (ix2 k q) := by
  refine (Ideal.matmul_constant_zero_apply dot_S2000x128_S128x128_S2000x128_1_0_0_1_n_n none a b (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The payloads at an index -/

/-- The perceptron payload at row `p`, feature `q` of the block is the block's perceptron value there. -/
theorem pay4_apply (x0 x1 : Vec Ideal S2000x128 .f32) (x2 : Vec Ideal S128x128 .f32) (x3 : Vec Ideal S1x128 .f32) (x4 : Vec Ideal S128x128 .f32) (x5 : Vec Ideal S1x128 .f32) (p : Fin 2000) (q : Fin 128) :
    k0_pay4 (F := Ideal) x0 x1 x2 x3 x4 x5 (ix2 p q) = blkVal x0 x1 x2 x3 x4 x5 p q := by
  unfold k0_pay4 blkVal mlpRow hiddenRow
  dsimp only
  refine (addf_apply _ _ _).trans ?_
  refine congrArg₂ (· + ·) ?_ ?_
  · -- the second product: hidden row `p` against column `q` of the second weights
    refine (matmul_dot_apply _ _ p q).trans ?_
    refine Finset.sum_congr rfl fun k _ => ?_
    refine congrArg₂ (· * ·) ?_ (truncf_apply (φ := .f32) (ψ := .bf16) _ _ _)
    refine (truncf_apply (φ := .f32) (ψ := .bf16) _ _ _).trans ?_
    refine (maximumf_apply _ _ _).trans ?_
    refine congrArg₂ max ?_ ?_
    · refine (addf_apply _ _ _).trans ?_
      refine congrArg₂ (· + ·) ?_ ?_
      · -- the first product: row `p` of the summed features against column `k` of the first weights
        refine (matmul_dot_apply _ _ p k).trans ?_
        refine Finset.sum_congr rfl fun l _ => ?_
        refine congrArg₂ (· * ·) ?_ (truncf_apply (φ := .f32) (ψ := .bf16) _ _ _)
        refine (truncf_apply (φ := .f32) (ψ := .bf16) _ _ _).trans ?_
        refine (addf_apply _ _ _).trans ?_
        exact congrArg (· + x1 (ix2 p l)) (congrFun (shapeCast_self x0 _) (ix2 p l))
      · -- the first bias row, broadcast over the rows
        refine (broadcastTo_1b_ab_apply _ _ p k).trans ?_
        exact congrFun (shapeCast_self x3 _) (ix2 0 k)
    · exact Ideal.ofBits_zero_f32
  · -- the second bias row, broadcast over the rows
    refine (broadcastTo_1b_ab_apply _ _ p q).trans ?_
    exact congrFun (shapeCast_self x5 _) (ix2 0 q)

/-- The index a reduction over the rows inserts row `k` into: (k, q). -/
theorem lift_ix1 (q : Fin 128) (k : Fin 2000) : reduces_S2000x128_S128.lift (ix1 q) k = ix2 k q := by
  funext a
  match a with
  | ⟨0, _⟩ => exact Fin.ext rfl
  | ⟨1, _⟩ => exact Fin.ext rfl

/-- A sum over the rows, at feature `q`: the sum of column `q`. -/
theorem colsum_apply (A : FVec Ideal S2000x128 .f32) (q : Fin 128) :
    multiReduction (F := Ideal) .add [0] S128 A 0x00000000#32 reduces_S2000x128_S128 (.inl rfl) rfl (ix1 q)
      = ∑ p : Fin 2000, A (ix2 p q) := by
  refine (Ideal.multiReduction_add_single A _ reduces_S2000x128_S128 _ _ (ix1 q)).trans ?_
  exact Finset.sum_congr rfl fun k _ => congrArg A (lift_ix1 q k)

/-- The column sums of squares of the block's perceptron values. -/
theorem pay5_apply (x0 x1 : Vec Ideal S2000x128 .f32) (x2 : Vec Ideal S128x128 .f32) (x3 : Vec Ideal S1x128 .f32) (x4 : Vec Ideal S128x128 .f32) (x5 : Vec Ideal S1x128 .f32) (q : Fin 128) :
    k0_pay5 (F := Ideal) x0 x1 x2 x3 x4 x5 (ix1 q) = ∑ p : Fin 2000, blkVal x0 x1 x2 x3 x4 x5 p q * blkVal x0 x1 x2 x3 x4 x5 p q := by
  unfold k0_pay5
  dsimp only
  refine (colsum_apply _ q).trans ?_
  refine Finset.sum_congr rfl fun p _ => ?_
  refine (mulf_apply _ _ _).trans ?_
  rw [pay4_apply]

/-- The loaded row plus the column sums of the block's perceptron values. -/
theorem pay6_apply (x0 x1 : Vec Ideal S2000x128 .f32) (x2 : Vec Ideal S128x128 .f32) (x3 : Vec Ideal S1x128 .f32) (x4 : Vec Ideal S128x128 .f32) (x5 : Vec Ideal S1x128 .f32) (v29 : Vec Ideal S1x128 .f32) (q : Fin 128) :
    k0_pay6 (F := Ideal) x0 x1 x2 x3 x4 x5 v29 (ix1 q) = v29 (ix2 0 q) + ∑ p : Fin 2000, blkVal x0 x1 x2 x3 x4 x5 p q := by
  unfold k0_pay6
  dsimp only
  refine (addf_apply _ _ _).trans ?_
  refine congrArg₂ (· + ·) (shapeCast_1a_a_apply v29 _ q) ?_
  refine (colsum_apply _ q).trans ?_
  exact Finset.sum_congr rfl fun p _ => pay4_apply x0 x1 x2 x3 x4 x5 p q

/-- A vector stored as one row. -/
theorem pay1_apply (v31 : FVec Ideal S128 .f32) (q : Fin 128) :
    k0_pay1 (F := Ideal) v31 (ix2 0 q) = v31 (ix1 q) := by
  unfold k0_pay1
  exact shapeCast_a_1a_apply v31 _ 0 q

/-- A loaded row plus a vector, stored as one row. -/
theorem pay2_apply (v28 : FVec Ideal S128 .f32) (v35 : Vec Ideal S1x128 .f32) (q : Fin 128) :
    k0_pay2 (F := Ideal) v28 v35 (ix2 0 q) = v35 (ix2 0 q) + v28 (ix1 q) := by
  unfold k0_pay2
  refine (shapeCast_a_1a_apply _ _ 0 q).trans ?_
  refine (addf_apply _ _ _).trans ?_
  exact congrArg (· + v28 (ix1 q)) (shapeCast_1a_a_apply v35 _ q)

/-- The reset block is zero everywhere. -/
theorem pay3_apply (y : S2x128.Idx) : k0_pay3 (F := Ideal) y = 0 := by
  unfold k0_pay3
  exact (congrFun (shapeCast_self _ _) y).trans Ideal.ofBits_zero_f32

/-! ## Rows of the two-row scratch -/

/-- The zero offsets of a rank-two rectangle, however spelt. -/
theorem hz2 : (![0, 0] : Fin 2 → ℕ) = fun _ => 0 := by
  funext a; match a with | ⟨0, _⟩ => rfl | ⟨1, _⟩ => rfl

section Rows

variable {Val : EltTy → Type} [∀ e, Nonempty (Val e)] (v : View sig .tc .vmem S2x128 .f32) (f : v.ty.Contents Val)

/-- Column `q` of the row-1 rectangle is the array's index (1, q). -/
theorem row1_idx (inb : ∀ a, (![1, 0] : Fin 2 → ℕ) a + S1x128.size a ≤ S2x128.size a) (q : Fin 128) :
    (Rect.unit (s := S2x128) ![1, 0] S1x128.size inb).toLoadRect.idx (ix2 (0 : Fin 1) q) = ix2 (1 : Fin 2) q := by
  funext a
  match a with
  | ⟨0, _⟩ => exact Fin.ext rfl
  | ⟨1, _⟩ => exact Fin.ext (by show 0 + 1 * q.val = q.val; omega)

/-- Column `q` of the row-0 rectangle is the array's index (0, q). -/
theorem row0_idx (inb : ∀ a, (![0, 0] : Fin 2 → ℕ) a + S1x128.size a ≤ S2x128.size a) (q : Fin 128) :
    (Rect.unit (s := S2x128) ![0, 0] S1x128.size inb).toLoadRect.idx (ix2 (0 : Fin 1) q) = ix2 (0 : Fin 2) q := by
  funext a
  match a with
  | ⟨0, _⟩ => exact Fin.ext rfl
  | ⟨1, _⟩ => exact Fin.ext (by show 0 + 1 * q.val = q.val; omega)

/-- After a newest store of row 1, row 1 reads that store's payload, -/
theorem read_row1_top (inb : ∀ a, (![1, 0] : Fin 2 → ℕ) a + S1x128.size a ≤ S2x128.size a)
    (w : (Rect.unit (s := S2x128) ![1, 0] S1x128.size inb).shape.Idx → Val .f32) (L : List (View.Piece Val S2x128 .f32)) (q : Fin 128) :
    v.read Val (v.writes Val f (⟨Rect.unit (s := S2x128) ![1, 0] S1x128.size inb, w⟩ :: L)) (ix2 (1 : Fin 2) q) = w (ix2 (0 : Fin 1) q) :=
  View.read_writes_cons_rows_of_mem v f inb w L (ix2 (1 : Fin 2) q) (ix2 (0 : Fin 1) q) rfl rfl rfl

/-- and row 0 what the earlier stores left. -/
theorem read_row0_under1 (inb : ∀ a, (![1, 0] : Fin 2 → ℕ) a + S1x128.size a ≤ S2x128.size a)
    (w : (Rect.unit (s := S2x128) ![1, 0] S1x128.size inb).shape.Idx → Val .f32) (L : List (View.Piece Val S2x128 .f32)) (q : Fin 128) :
    v.read Val (v.writes Val f (⟨Rect.unit (s := S2x128) ![1, 0] S1x128.size inb, w⟩ :: L)) (ix2 (0 : Fin 2) q)
      = v.read Val (v.writes Val f L) (ix2 (0 : Fin 2) q) :=
  View.read_writes_cons_rows_of_not_mem v f inb w L (ix2 (0 : Fin 2) q) rfl rfl (Or.inl Nat.zero_lt_one)

/-- After a newest store of row 0, row 0 reads that store's payload, -/
theorem read_row0_top (inb : ∀ a, (![0, 0] : Fin 2 → ℕ) a + S1x128.size a ≤ S2x128.size a)
    (w : (Rect.unit (s := S2x128) ![0, 0] S1x128.size inb).shape.Idx → Val .f32) (L : List (View.Piece Val S2x128 .f32)) (q : Fin 128) :
    v.read Val (v.writes Val f (⟨Rect.unit (s := S2x128) ![0, 0] S1x128.size inb, w⟩ :: L)) (ix2 (0 : Fin 2) q) = w (ix2 (0 : Fin 1) q) :=
  View.read_writes_cons_rows_of_mem v f inb w L (ix2 (0 : Fin 2) q) (ix2 (0 : Fin 1) q) rfl rfl rfl

/-- and row 1 what the earlier stores left. -/
theorem read_row1_under0 (inb : ∀ a, (![0, 0] : Fin 2 → ℕ) a + S1x128.size a ≤ S2x128.size a)
    (w : (Rect.unit (s := S2x128) ![0, 0] S1x128.size inb).shape.Idx → Val .f32) (L : List (View.Piece Val S2x128 .f32)) (q : Fin 128) :
    v.read Val (v.writes Val f (⟨Rect.unit (s := S2x128) ![0, 0] S1x128.size inb, w⟩ :: L)) (ix2 (1 : Fin 2) q)
      = v.read Val (v.writes Val f L) (ix2 (1 : Fin 2) q) :=
  View.read_writes_cons_rows_of_not_mem v f inb w L (ix2 (1 : Fin 2) q) rfl rfl (Or.inr (Nat.le_refl 1))

/-- After a newest store of the whole array, every index reads that store's payload. -/
theorem read_whole_top (inb : ∀ a, (![0, 0] : Fin 2 → ℕ) a + S2x128.size a ≤ S2x128.size a)
    (w : (Rect.unit (s := S2x128) ![0, 0] S2x128.size inb).shape.Idx → Val .f32) (L : List (View.Piece Val S2x128 .f32)) (y : S2x128.Idx) :
    v.read Val (v.writes Val f (⟨Rect.unit (s := S2x128) ![0, 0] S2x128.size inb, w⟩ :: L)) y = w y :=
  View.read_writes_cons_unit_of_mem v f inb w L y y hz2 (fun a => (Nat.zero_add _).symm)

/-- A load of row 1 after the stores `L`, at column `q`: the array after `L` at (1, q); -/
theorem readCov_row1_apply (L : List (View.Piece Val S2x128 .f32)) (inb : ∀ a, (![1, 0] : Fin 2 → ℕ) a + S1x128.size a ≤ S2x128.size a) (q : Fin 128) :
    v.readCov L (Rect.unit (s := S2x128) ![1, 0] S1x128.size inb).toLoadRect (ix2 (0 : Fin 1) q)
      = v.read Val (v.writes Val v.junk L) (ix2 (1 : Fin 2) q) :=
  congrArg (v.read Val (v.writes Val v.junk L)) (row1_idx inb q)

/-- of row 0, the array after `L` at (0, q). -/
theorem readCov_row0_apply (L : List (View.Piece Val S2x128 .f32)) (inb : ∀ a, (![0, 0] : Fin 2 → ℕ) a + S1x128.size a ≤ S2x128.size a) (q : Fin 128) :
    v.readCov L (Rect.unit (s := S2x128) ![0, 0] S1x128.size inb).toLoadRect (ix2 (0 : Fin 1) q)
      = v.read Val (v.writes Val v.junk L) (ix2 (0 : Fin 2) q) :=
  congrArg (v.read Val (v.writes Val v.junk L)) (row0_idx inb q)

end Rows

/-! ## The perceptron output's buffer: one piece -/

/-- In the first case the one piece stored into the perceptron output's buffer is the perceptron payload of the six staged blocks, at any values. -/
theorem out0_A_6_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : cond0_0 i) (hc1 : ¬cond0_1 i) (x0 x1 : Vec F S2000x128 .f32) (x2 : Vec F S128x128 .f32) (x3 : Vec F S1x128 .f32) (x4 : Vec F S128x128 .f32) (x5 : Vec F S1x128 .f32) :
    out0_A_6 c i arg1 harg1 arg2 harg2 arg3 harg3 arg4 harg4 arg5 harg5 arg6 harg6 arg7 harg7 arg8 harg8 arg9 harg9 hc0 hc1 x0 x1 x2 x3 x4 x5 = k0_pay4 x0 x1 x2 x3 x4 x5 := by
  unfold out0_A_6
  rw [View.read_writes_junk_eq_canon]
  unfold kernelRun0_A
  dsimp only
  sl_unfold_words
  rw [View.canon_unit_zero hz2]
  simp only [View.readAt_eq_ld, harg1.read_unread, harg2.read_unread, harg3.read_unread, harg4.read_unread, harg5.read_unread, harg6.read_unread,
    View.ld_unit_zero (S := S2000x128) hz2, View.ld_unit_zero (S := S128x128) hz2, View.ld_unit_zero (S := S1x128) hz2]

/-- In the middle case the one piece stored into the perceptron output's buffer is the perceptron payload of the six staged blocks, at any values. -/
theorem out0_B_6_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : ¬cond0_1 i) (x0 x1 : Vec F S2000x128 .f32) (x2 : Vec F S128x128 .f32) (x3 : Vec F S1x128 .f32) (x4 : Vec F S128x128 .f32) (x5 : Vec F S1x128 .f32) (xs0 : Vec F S2x128 .f32) :
    out0_B_6 c i arg1 harg1 arg2 harg2 arg3 harg3 arg4 harg4 arg5 harg5 arg6 harg6 arg7 harg7 arg8 harg8 arg9 harg9 hc0 hc1 x0 x1 x2 x3 x4 x5 xs0 = k0_pay4 x0 x1 x2 x3 x4 x5 := by
  unfold out0_B_6
  rw [View.read_writes_junk_eq_canon]
  unfold kernelRun0_B
  dsimp only
  sl_unfold_words
  rw [View.canon_unit_zero hz2]
  simp only [View.readAt_eq_ld, harg1.read_unread, harg2.read_unread, harg3.read_unread, harg4.read_unread, harg5.read_unread, harg6.read_unread,
    View.ld_unit_zero (S := S2000x128) hz2, View.ld_unit_zero (S := S128x128) hz2, View.ld_unit_zero (S := S1x128) hz2]

/-- In the last case the one piece stored into the perceptron output's buffer is the perceptron payload of the six staged blocks, at any values. -/
theorem out0_C_6_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : cond0_1 i) (x0 x1 : Vec F S2000x128 .f32) (x2 : Vec F S128x128 .f32) (x3 : Vec F S1x128 .f32) (x4 : Vec F S128x128 .f32) (x5 : Vec F S1x128 .f32) (xs0 : Vec F S2x128 .f32) :
    out0_C_6 c i arg1 harg1 arg2 harg2 arg3 harg3 arg4 harg4 arg5 harg5 arg6 harg6 arg7 harg7 arg8 harg8 arg9 harg9 hc0 hc1 x0 x1 x2 x3 x4 x5 xs0 = k0_pay4 x0 x1 x2 x3 x4 x5 := by
  unfold out0_C_6
  rw [View.read_writes_junk_eq_canon]
  unfold kernelRun0_C
  dsimp only
  sl_unfold_words
  rw [View.canon_unit_zero hz2]
  simp only [View.readAt_eq_ld, harg1.read_unread, harg2.read_unread, harg3.read_unread, harg4.read_unread, harg5.read_unread, harg6.read_unread,
    View.ld_unit_zero (S := S2000x128) hz2, View.ld_unit_zero (S := S128x128) hz2, View.ld_unit_zero (S := S1x128) hz2]

end Pieces0

open Pieces0

/-! # What the three cases leave, at an index -/

/-- In the first case the perceptron output's buffer holds the block's perceptron values. -/
theorem out0_A_6_apply (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : cond0_0 i) (hc1 : ¬cond0_1 i)
    (x0 x1 : Vec Ideal S2000x128 .f32) (x2 : Vec Ideal S128x128 .f32) (x3 : Vec Ideal S1x128 .f32) (x4 : Vec Ideal S128x128 .f32) (x5 : Vec Ideal S1x128 .f32) (p : Fin 2000) (q : Fin 128) :
    out0_A_6 (F := Ideal) c i arg1 harg1 arg2 harg2 arg3 harg3 arg4 harg4 arg5 harg5 arg6 harg6 arg7 harg7 arg8 harg8 arg9 harg9 hc0 hc1 x0 x1 x2 x3 x4 x5 (ix2 p q) = blkVal x0 x1 x2 x3 x4 x5 p q := by
  exact (congrFun (out0_A_6_eq (F := Ideal) c i arg1 harg1 arg2 harg2 arg3 harg3 arg4 harg4 arg5 harg5 arg6 harg6 arg7 harg7 arg8 harg8 arg9 harg9 hc0 hc1 x0 x1 x2 x3 x4 x5) (ix2 p q)).trans (pay4_apply x0 x1 x2 x3 x4 x5 p q)

/-- In the first case row 0 of the scratch holds  the block's column sums, -/
theorem sout0_A_0_row0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : cond0_0 i) (hc1 : ¬cond0_1 i)
    (x0 x1 : Vec Ideal S2000x128 .f32) (x2 : Vec Ideal S128x128 .f32) (x3 : Vec Ideal S1x128 .f32) (x4 : Vec Ideal S128x128 .f32) (x5 : Vec Ideal S1x128 .f32) (q : Fin 128) :
    sout0_A_0 (F := Ideal) c i arg1 harg1 arg2 harg2 arg3 harg3 arg4 harg4 arg5 harg5 arg6 harg6 arg7 harg7 arg8 harg8 arg9 harg9 hc0 hc1 x0 x1 x2 x3 x4 x5 (ix2 0 q) = ∑ p : Fin 2000, blkVal x0 x1 x2 x3 x4 x5 p q := by
  unfold sout0_A_0 kernelRun0_A
  dsimp only
  sl_unfold_words
  -- the newest store is row 1: row 0 is the store before it, the loaded row 0 plus the column sums as one row
  refine (read_row0_under1 VS0_0 _ _ _ _ q).trans ?_
  refine (read_row0_top VS0_0 _ _ _ _ q).trans ?_
  simp only [View.readAt_eq_ld, harg1.read_unread, harg2.read_unread, harg3.read_unread, harg4.read_unread, harg5.read_unread, harg6.read_unread,
    View.ld_unit_zero (S := S2000x128) hz2, View.ld_unit_zero (S := S128x128) hz2, View.ld_unit_zero (S := S1x128) hz2]
  refine (pay1_apply _ q).trans ?_
  refine (pay6_apply x0 x1 x2 x3 x4 x5 _ q).trans ?_
  refine (congrArg (· + ∑ p : Fin 2000, blkVal x0 x1 x2 x3 x4 x5 p q) ?_).trans (zero_add _)
  -- the loaded row 0 is row 0 of the zero block the case began by storing
  refine (readCov_row0_apply arg9.view _ _ q).trans ?_
  refine (read_whole_top arg9.view _ _ _ _ _).trans ?_
  exact pay3_apply _

/-- and row 1  the block's column sums of squares. -/
theorem sout0_A_0_row1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : cond0_0 i) (hc1 : ¬cond0_1 i)
    (x0 x1 : Vec Ideal S2000x128 .f32) (x2 : Vec Ideal S128x128 .f32) (x3 : Vec Ideal S1x128 .f32) (x4 : Vec Ideal S128x128 .f32) (x5 : Vec Ideal S1x128 .f32) (q : Fin 128) :
    sout0_A_0 (F := Ideal) c i arg1 harg1 arg2 harg2 arg3 harg3 arg4 harg4 arg5 harg5 arg6 harg6 arg7 harg7 arg8 harg8 arg9 harg9 hc0 hc1 x0 x1 x2 x3 x4 x5 (ix2 1 q) = ∑ p : Fin 2000, blkVal x0 x1 x2 x3 x4 x5 p q * blkVal x0 x1 x2 x3 x4 x5 p q := by
  unfold sout0_A_0 kernelRun0_A
  dsimp only
  sl_unfold_words
  -- the newest store is row 1: the loaded row 1 plus the column sums of squares as one row
  refine (read_row1_top VS0_0 _ _ _ _ q).trans ?_
  simp only [View.readAt_eq_ld, harg1.read_unread, harg2.read_unread, harg3.read_unread, harg4.read_unread, harg5.read_unread, harg6.read_unread,
    View.ld_unit_zero (S := S2000x128) hz2, View.ld_unit_zero (S := S128x128) hz2, View.ld_unit_zero (S := S1x128) hz2]
  refine (pay2_apply _ _ q).trans ?_
  refine (congrArg₂ (· + ·) ?_ (pay5_apply x0 x1 x2 x3 x4 x5 q)).trans (zero_add _)
  -- the loaded row 1 passes over the store of row 0 and is row 1 of the zero block the case began by storing
  refine (readCov_row1_apply arg9.view _ _ q).trans ?_
  refine (read_row1_under0 arg9.view _ _ _ _ q).trans ?_
  refine (read_whole_top arg9.view _ _ _ _ _).trans ?_
  exact pay3_apply _

/-- In the middle case the perceptron output's buffer holds the block's perceptron values. -/
theorem out0_B_6_apply (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : ¬cond0_1 i)
    (x0 x1 : Vec Ideal S2000x128 .f32) (x2 : Vec Ideal S128x128 .f32) (x3 : Vec Ideal S1x128 .f32) (x4 : Vec Ideal S128x128 .f32) (x5 : Vec Ideal S1x128 .f32) (xs0 : Vec Ideal S2x128 .f32) (p : Fin 2000) (q : Fin 128) :
    out0_B_6 (F := Ideal) c i arg1 harg1 arg2 harg2 arg3 harg3 arg4 harg4 arg5 harg5 arg6 harg6 arg7 harg7 arg8 harg8 arg9 harg9 hc0 hc1 x0 x1 x2 x3 x4 x5 xs0 (ix2 p q) = blkVal x0 x1 x2 x3 x4 x5 p q := by
  exact (congrFun (out0_B_6_eq (F := Ideal) c i arg1 harg1 arg2 harg2 arg3 harg3 arg4 harg4 arg5 harg5 arg6 harg6 arg7 harg7 arg8 harg8 arg9 harg9 hc0 hc1 x0 x1 x2 x3 x4 x5 xs0) (ix2 p q)).trans (pay4_apply x0 x1 x2 x3 x4 x5 p q)

/-- In the middle case row 0 of the scratch holds what it held plus the block's column sums, -/
theorem sout0_B_0_row0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : ¬cond0_1 i)
    (x0 x1 : Vec Ideal S2000x128 .f32) (x2 : Vec Ideal S128x128 .f32) (x3 : Vec Ideal S1x128 .f32) (x4 : Vec Ideal S128x128 .f32) (x5 : Vec Ideal S1x128 .f32) (xs0 : Vec Ideal S2x128 .f32) (q : Fin 128) :
    sout0_B_0 (F := Ideal) c i arg1 harg1 arg2 harg2 arg3 harg3 arg4 harg4 arg5 harg5 arg6 harg6 arg7 harg7 arg8 harg8 arg9 harg9 hc0 hc1 x0 x1 x2 x3 x4 x5 xs0 (ix2 0 q) = xs0 (ix2 0 q) + ∑ p : Fin 2000, blkVal x0 x1 x2 x3 x4 x5 p q := by
  unfold sout0_B_0 kernelRun0_B
  dsimp only
  sl_unfold_words
  -- the newest store is row 1: row 0 is the store before it, the loaded row 0 plus the column sums as one row
  refine (read_row0_under1 VS0_0 _ _ _ _ q).trans ?_
  refine (read_row0_top VS0_0 _ _ _ _ q).trans ?_
  simp only [View.readAt_eq_ld, harg1.read_unread, harg2.read_unread, harg3.read_unread, harg4.read_unread, harg5.read_unread, harg6.read_unread, harg9.read_unread,
    View.ld_unit_zero (S := S2000x128) hz2, View.ld_unit_zero (S := S128x128) hz2, View.ld_unit_zero (S := S1x128) hz2]
  refine (pay1_apply _ q).trans ?_
  refine (pay6_apply x0 x1 x2 x3 x4 x5 _ q).trans ?_
  exact congrArg (· + ∑ p : Fin 2000, blkVal x0 x1 x2 x3 x4 x5 p q) (congrArg xs0 (row0_idx _ q))

/-- and row 1 what it held plus the block's column sums of squares. -/
theorem sout0_B_0_row1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : ¬cond0_1 i)
    (x0 x1 : Vec Ideal S2000x128 .f32) (x2 : Vec Ideal S128x128 .f32) (x3 : Vec Ideal S1x128 .f32) (x4 : Vec Ideal S128x128 .f32) (x5 : Vec Ideal S1x128 .f32) (xs0 : Vec Ideal S2x128 .f32) (q : Fin 128) :
    sout0_B_0 (F := Ideal) c i arg1 harg1 arg2 harg2 arg3 harg3 arg4 harg4 arg5 harg5 arg6 harg6 arg7 harg7 arg8 harg8 arg9 harg9 hc0 hc1 x0 x1 x2 x3 x4 x5 xs0 (ix2 1 q) = xs0 (ix2 1 q) + ∑ p : Fin 2000, blkVal x0 x1 x2 x3 x4 x5 p q * blkVal x0 x1 x2 x3 x4 x5 p q := by
  unfold sout0_B_0 kernelRun0_B
  dsimp only
  sl_unfold_words
  -- the newest store is row 1: the loaded row 1 plus the column sums of squares as one row
  refine (read_row1_top VS0_0 _ _ _ _ q).trans ?_
  simp only [View.readAt_eq_ld, harg1.read_unread, harg2.read_unread, harg3.read_unread, harg4.read_unread, harg5.read_unread, harg6.read_unread, harg9.read_unread,
    View.ld_unit_zero (S := S2000x128) hz2, View.ld_unit_zero (S := S128x128) hz2, View.ld_unit_zero (S := S1x128) hz2]
  refine (pay2_apply _ _ q).trans ?_
  exact congrArg₂ (· + ·) (congrArg xs0 (row1_idx _ q)) (pay5_apply x0 x1 x2 x3 x4 x5 q)

/-- In the last case the perceptron output's buffer holds the block's perceptron values. -/
theorem out0_C_6_apply (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : cond0_1 i)
    (x0 x1 : Vec Ideal S2000x128 .f32) (x2 : Vec Ideal S128x128 .f32) (x3 : Vec Ideal S1x128 .f32) (x4 : Vec Ideal S128x128 .f32) (x5 : Vec Ideal S1x128 .f32) (xs0 : Vec Ideal S2x128 .f32) (p : Fin 2000) (q : Fin 128) :
    out0_C_6 (F := Ideal) c i arg1 harg1 arg2 harg2 arg3 harg3 arg4 harg4 arg5 harg5 arg6 harg6 arg7 harg7 arg8 harg8 arg9 harg9 hc0 hc1 x0 x1 x2 x3 x4 x5 xs0 (ix2 p q) = blkVal x0 x1 x2 x3 x4 x5 p q := by
  exact (congrFun (out0_C_6_eq (F := Ideal) c i arg1 harg1 arg2 harg2 arg3 harg3 arg4 harg4 arg5 harg5 arg6 harg6 arg7 harg7 arg8 harg8 arg9 harg9 hc0 hc1 x0 x1 x2 x3 x4 x5 xs0) (ix2 p q)).trans (pay4_apply x0 x1 x2 x3 x4 x5 p q)

/-- In the last case row 0 of the scratch holds what it held plus the block's column sums, -/
theorem sout0_C_0_row0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : cond0_1 i)
    (x0 x1 : Vec Ideal S2000x128 .f32) (x2 : Vec Ideal S128x128 .f32) (x3 : Vec Ideal S1x128 .f32) (x4 : Vec Ideal S128x128 .f32) (x5 : Vec Ideal S1x128 .f32) (xs0 : Vec Ideal S2x128 .f32) (q : Fin 128) :
    sout0_C_0 (F := Ideal) c i arg1 harg1 arg2 harg2 arg3 harg3 arg4 harg4 arg5 harg5 arg6 harg6 arg7 harg7 arg8 harg8 arg9 harg9 hc0 hc1 x0 x1 x2 x3 x4 x5 xs0 (ix2 0 q) = xs0 (ix2 0 q) + ∑ p : Fin 2000, blkVal x0 x1 x2 x3 x4 x5 p q := by
  unfold sout0_C_0 kernelRun0_C
  dsimp only
  sl_unfold_words
  -- the newest store is row 1: row 0 is the store before it, the loaded row 0 plus the column sums as one row
  refine (read_row0_under1 VS0_0 _ _ _ _ q).trans ?_
  refine (read_row0_top VS0_0 _ _ _ _ q).trans ?_
  simp only [View.readAt_eq_ld, harg1.read_unread, harg2.read_unread, harg3.read_unread, harg4.read_unread, harg5.read_unread, harg6.read_unread, harg9.read_unread,
    View.ld_unit_zero (S := S2000x128) hz2, View.ld_unit_zero (S := S128x128) hz2, View.ld_unit_zero (S := S1x128) hz2]
  refine (pay1_apply _ q).trans ?_
  refine (pay6_apply x0 x1 x2 x3 x4 x5 _ q).trans ?_
  exact congrArg (· + ∑ p : Fin 2000, blkVal x0 x1 x2 x3 x4 x5 p q) (congrArg xs0 (row0_idx _ q))

/-- and row 1 what it held plus the block's column sums of squares. -/
theorem sout0_C_0_row1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : cond0_1 i)
    (x0 x1 : Vec Ideal S2000x128 .f32) (x2 : Vec Ideal S128x128 .f32) (x3 : Vec Ideal S1x128 .f32) (x4 : Vec Ideal S128x128 .f32) (x5 : Vec Ideal S1x128 .f32) (xs0 : Vec Ideal S2x128 .f32) (q : Fin 128) :
    sout0_C_0 (F := Ideal) c i arg1 harg1 arg2 harg2 arg3 harg3 arg4 harg4 arg5 harg5 arg6 harg6 arg7 harg7 arg8 harg8 arg9 harg9 hc0 hc1 x0 x1 x2 x3 x4 x5 xs0 (ix2 1 q) = xs0 (ix2 1 q) + ∑ p : Fin 2000, blkVal x0 x1 x2 x3 x4 x5 p q * blkVal x0 x1 x2 x3 x4 x5 p q := by
  unfold sout0_C_0 kernelRun0_C
  dsimp only
  sl_unfold_words
  -- the newest store is row 1: the loaded row 1 plus the column sums of squares as one row
  refine (read_row1_top VS0_0 _ _ _ _ q).trans ?_
  simp only [View.readAt_eq_ld, harg1.read_unread, harg2.read_unread, harg3.read_unread, harg4.read_unread, harg5.read_unread, harg6.read_unread, harg9.read_unread,
    View.ld_unit_zero (S := S2000x128) hz2, View.ld_unit_zero (S := S128x128) hz2, View.ld_unit_zero (S := S1x128) hz2]
  refine (pay2_apply _ _ q).trans ?_
  exact congrArg₂ (· + ·) (congrArg xs0 (row1_idx _ q)) (pay5_apply x0 x1 x2 x3 x4 x5 q)

/-- In the last case the statistics buffer is the scratch as the case leaves it. -/
theorem out0_C_7_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2x128 .f32) (harg8 : arg8.IsWhole) (arg9 : Memref sig .tc .vmem S2x128 .f32) (harg9 : arg9.IsWhole) (hc0 : ¬cond0_0 i) (hc1 : cond0_1 i)
    (x0 x1 : Vec Ideal S2000x128 .f32) (x2 : Vec Ideal S128x128 .f32) (x3 : Vec Ideal S1x128 .f32) (x4 : Vec Ideal S128x128 .f32) (x5 : Vec Ideal S1x128 .f32) (xs0 : Vec Ideal S2x128 .f32) :
    out0_C_7 (F := Ideal) c i arg1 harg1 arg2 harg2 arg3 harg3 arg4 harg4 arg5 harg5 arg6 harg6 arg7 harg7 arg8 harg8 arg9 harg9 hc0 hc1 x0 x1 x2 x3 x4 x5 xs0 = sout0_C_0 (F := Ideal) c i arg1 harg1 arg2 harg2 arg3 harg3 arg4 harg4 arg5 harg5 arg6 harg6 arg7 harg7 arg8 harg8 arg9 harg9 hc0 hc1 x0 x1 x2 x3 x4 x5 xs0 := by
  unfold out0_C_7 sout0_C_0 kernelRun0_C
  dsimp only
  sl_unfold_words
  -- the one piece copied out is the load of the whole scratch after its two row stores: both sides are those stores' contents
  rw [View.read_writes_junk_eq_canon, View.read_writes_junk_eq_canon, View.canon_unit_zero hz2, View.readCov_eq_canon']
  exact View.ld_unit_zero (S := S2x128) hz2 _ _

end Cert.KernelIdeal.Fr

end
-- ==== Proof.KI.Arrays.lean ====
/-
  The arrays the kernel regions are entered with, and the program's arguments, each named at its literal type (rows ×
  features, features × features, a row of features, a vector of features) so that arithmetic on their entries is
  arithmetic on extended reals.
-/
import proofs.«132064_j22196390986098_1_alg».proof.Proof.Gen.KernelIdeal
import proofs.«132064_j22196390986098_1_alg».proof.Proof.Spec

noncomputable section

namespace Cert.KernelIdeal.Fr

open Cert.KernelIdeal Idealize.ShloMosaic Idealize.ShloMosaic.TcCoe Idealize.SL.Sem Cert.Spec

/-- A row of features, as a shape (the reshaped bias, scale and shift vectors). -/
abbrev SRow : Shape := ⟨2, ![1, 128]⟩
/-- The two statistics rows. -/
abbrev SStat : Shape := ⟨2, ![2, 128]⟩

section Entry
variable (V : (c : Dev nD) → (b : Ref sig .tc) → Buf (Elt Ideal) ((c : Thread nD τ).loc b))

/-- What the first region is entered with: aggregated features, features, the two weight matrices, the two bias rows. -/
abbrev eAgg (c : Dev nD) : SMat.Idx → EReal := V c main_v13
abbrev eX (c : Dev nD) : SMat.Idx → EReal := V c main_arg0
abbrev eW1 (c : Dev nD) : SSq.Idx → EReal := V c main_arg2
abbrev eB1 (c : Dev nD) : SRow.Idx → EReal := V c main_v14
abbrev eW2 (c : Dev nD) : SSq.Idx → EReal := V c main_arg4
abbrev eB2 (c : Dev nD) : SRow.Idx → EReal := V c main_v15
/-- What the second region is entered with besides the features: the perceptron output, the scale row, the shift row. -/
abbrev eH (c : Dev nD) : SMat.Idx → EReal := V c main_v16_0
abbrev eSc (c : Dev nD) : SRow.Idx → EReal := V c main_v33
abbrev eSh (c : Dev nD) : SRow.Idx → EReal := V c main_v34
end Entry

section Args
variable (m : (ℓ : Loc nD τ sig) → Buf (Elt Ideal) ℓ)
/-- The program's float arguments on core `c`: features, weights and biases of the two layers, scale and shift of
    the normalisation. -/
abbrev aX (c : Dev nD) : SMat.Idx → EReal := m ((c.tc : Thread nD τ).loc main_arg0)
abbrev aW1 (c : Dev nD) : SSq.Idx → EReal := m ((c.tc : Thread nD τ).loc main_arg2)
abbrev aB1 (c : Dev nD) : SVec.Idx → EReal := m ((c.tc : Thread nD τ).loc main_arg3)
abbrev aW2 (c : Dev nD) : SSq.Idx → EReal := m ((c.tc : Thread nD τ).loc main_arg4)
abbrev aB2 (c : Dev nD) : SVec.Idx → EReal := m ((c.tc : Thread nD τ).loc main_arg5)
abbrev aG (c : Dev nD) : SVec.Idx → EReal := m ((c.tc : Thread nD τ).loc main_arg6)
abbrev aBt (c : Dev nD) : SVec.Idx → EReal := m ((c.tc : Thread nD τ).loc main_arg7)
end Args

end Cert.KernelIdeal.Fr

end
-- ==== Proof.KI.Val0.lean ====
/-
  The first kernel region's two result arrays over the extended reals, as functions of the contents the region is
  entered with: the perceptron output array holds the perceptron of the entry arrays at every row (block `t` covers
  rows `2000·t … 2000·t + 1999`, and the 50 blocks tile the rows); the statistics array holds in row 0 each column's
  sum over all rows and in row 1 each column's sum of squares (the scratch after point `n` holds the sums over rows
  below `2000·(n+1)`, by induction on the point; the last point copies it out, and only that point writes the
  statistics window back).
-/
import proofs.«132064_j22196390986098_1_alg».proof.Proof.KI.Pieces0
import proofs.«132064_j22196390986098_1_alg».proof.Proof.KI.Arrays
import Idealize.ShloMosaic.Lib.ValueIdx
import Idealize.ShloMosaic.Lib.ValueLayout
import Idealize.ShloMosaic.Lib.Pipeline.Value
import Idealize.ShloMosaic.PureOps.Ideal.Laws

-- membership in a rectangle of 2000 rows: the elaborator recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec Idealize.ShloMosaic.ValueIdx

variable (V : (c : Dev nD) → (b : Ref sig .tc) → Buf (Elt Ideal) ((c : Thread nD τ).loc b))

/-- The perceptron of the arrays the first region is entered with (aggregated features `main_v13`, features
    `main_arg0`, weights `main_arg2` / `main_arg4`, bias rows `main_v14` / `main_v15`). -/
def hM (c : Dev nD) : Fin NR → Fin ND → EReal :=
  mlp (mat (eAgg V c)) (mat (eX V c)) (sqm (eW1 V c)) (fun k => eB1 V c (ix2 0 k)) (sqm (eW2 V c)) (fun k => eB2 V c (ix2 0 k))

/-- The rows in blocks of 2000: the sum over all rows is the sum over the 50 blocks of the sums over each block. -/
private theorem sum_rows_blocks (f : Fin 100000 → EReal) :
    ∑ t : Fin 50, ∑ p : Fin 2000, f ⟨2000 * t.val + p.val, by have := t.isLt; have := p.isLt; omega⟩ = ∑ i : Fin 100000, f i := by
  rw [← Fintype.sum_prod_type', ← Equiv.sum_comp (finProdFinEquiv (m := 50) (n := 2000)) f]
  refine Finset.sum_congr rfl fun x _ => congrArg f (Fin.ext ?_)
  show 2000 * x.1.val + x.2.val = x.2.val + 2000 * x.1.val
  omega

/-- One block's sum of a function of the rows, zero past the last block. -/
private def blkSum (g : Fin 100000 → EReal) (t : ℕ) : EReal :=
  if h : t < 50 then ∑ p : Fin 2000, g ⟨2000 * t + p.val, by have := p.isLt; omega⟩ else 0

/-- All 50 blocks' sums add up to the sum over all rows. -/
private theorem sum_blkSum (g : Fin 100000 → EReal) : ∑ t ∈ Finset.range 50, blkSum g t = ∑ i : Fin 100000, g i := by
  rw [Finset.sum_range, ← sum_rows_blocks g]
  refine Finset.sum_congr rfl fun t _ => ?_
  unfold blkSum
  rw [dif_pos t.isLt]

/-- The block index of each window at point `t`: `(t, 0)` for the three row-blocked windows, `(0, 0)` for the five
    whose block is the whole array. -/
private theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0) :=
  (by decide +kernel : ∀ t : Fin grid0.N, _)

private theorem lt50 (t : Fin cfg0.N) : t.val < 50 := lt_of_lt_of_eq t.isLt (show cfg0.N = 50 from N_0)

/-- Row `p` of block `t`, as a row of the array. -/
private def rowAt (t : Fin cfg0.N) (p : Fin 2000) : Fin NR :=
  ⟨2000 * t.val + p.val, by have h := lt50 t; have := p.isLt; show _ < 100000; omega⟩

/-- The aggregated features' block at point `t` holds rows `2000·t …` of the array. -/
private theorem read0_0 (c : Dev nD) (t : Fin cfg0.N) (p : Fin 2000) (l : Fin 128) :
    iblk0 V c 0 t (ix2 p l) = eAgg V c (ix2 (rowAt t p) l) := by
  unfold iblk0
  rw [View.read_apply]
  show V c main_v13 (((cfg0.win 0).blk t).view.emb (ix2 p l)) = V c main_v13 _
  congr 1
  funext a
  apply Fin.ext
  match a with
  | ⟨0, _⟩ => show win0_0.index t (0 : Fin 2) * 2000 + 1 * p.val = 2000 * t.val + p.val; rw [(idx_facts0 t).1.1]; omega
  | ⟨1, _⟩ => show win0_0.index t (1 : Fin 2) * 128 + 1 * l.val = l.val; rw [(idx_facts0 t).1.2]; omega

/-- The features' block at point `t` holds rows `2000·t …` of the array. -/
private theorem read0_1 (c : Dev nD) (t : Fin cfg0.N) (p : Fin 2000) (l : Fin 128) :
    iblk0 V c 1 t (ix2 p l) = eX V c (ix2 (rowAt t p) l) := by
  unfold iblk0
  rw [View.read_apply]
  show V c main_arg0 (((cfg0.win 1).blk t).view.emb (ix2 p l)) = V c main_arg0 _
  congr 1
  funext a
  apply Fin.ext
  match a with
  | ⟨0, _⟩ => show win0_1.index t (0 : Fin 2) * 2000 + 1 * p.val = 2000 * t.val + p.val; rw [(idx_facts0 t).2.1.1]; omega
  | ⟨1, _⟩ => show win0_1.index t (1 : Fin 2) * 128 + 1 * l.val = l.val; rw [(idx_facts0 t).2.1.2]; omega

/-- The first weights' block is the whole matrix at every point. -/
private theorem read0_2 (c : Dev nD) (t : Fin cfg0.N) (y : S128x128.Idx) : iblk0 V c 2 t y = eW1 V c y := by
  unfold iblk0
  rw [View.read_apply]
  show V c main_arg2 (((cfg0.win 2).blk t).view.emb y) = V c main_arg2 y
  congr 1
  funext a
  apply Fin.ext
  match a with
  | ⟨0, _⟩ => show win0_2.index t (0 : Fin 2) * 128 + 1 * (y 0).val = (y 0).val; rw [(idx_facts0 t).2.2.1.1]; omega
  | ⟨1, _⟩ => show win0_2.index t (1 : Fin 2) * 128 + 1 * (y 1).val = (y 1).val; rw [(idx_facts0 t).2.2.1.2]; omega

/-- The first bias row's block is the whole row at every point. -/
private theorem read0_3 (c : Dev nD) (t : Fin cfg0.N) (y : S1x128.Idx) : iblk0 V c 3 t y = eB1 V c y := by
  unfold iblk0
  rw [View.read_apply]
  show V c main_v14 (((cfg0.win 3).blk t).view.emb y) = V c main_v14 y
  congr 1
  funext a
  apply Fin.ext
  match a with
  | ⟨0, _⟩ => show win0_3.index t (0 : Fin 2) * 1 + 1 * (y 0).val = (y 0).val; rw [(idx_facts0 t).2.2.2.1.1]; omega
  | ⟨1, _⟩ => show win0_3.index t (1 : Fin 2) * 128 + 1 * (y 1).val = (y 1).val; rw [(idx_facts0 t).2.2.2.1.2]; omega

/-- The second weights' block is the whole matrix at every point. -/
private theorem read0_4 (c : Dev nD) (t : Fin cfg0.N) (y : S128x128.Idx) : iblk0 V c 4 t y = eW2 V c y := by
  unfold iblk0
  rw [View.read_apply]
  show V c main_arg4 (((cfg0.win 4).blk t).view.emb y) = V c main_arg4 y
  congr 1
  funext a
  apply Fin.ext
  match a with
  | ⟨0, _⟩ => show win0_4.index t (0 : Fin 2) * 128 + 1 * (y 0).val = (y 0).val; rw [(idx_facts0 t).2.2.2.2.1.1]; omega
  | ⟨1, _⟩ => show win0_4.index t (1 : Fin 2) * 128 + 1 * (y 1).val = (y 1).val; rw [(idx_facts0 t).2.2.2.2.1.2]; omega

/-- The second bias row's block is the whole row at every point. -/
private theorem read0_5 (c : Dev nD) (t : Fin cfg0.N) (y : S1x128.Idx) : iblk0 V c 5 t y = eB2 V c y := by
  unfold iblk0
  rw [View.read_apply]
  show V c main_v15 (((cfg0.win 5).blk t).view.emb y) = V c main_v15 y
  congr 1
  funext a
  apply Fin.ext
  match a with
  | ⟨0, _⟩ => show win0_5.index t (0 : Fin 2) * 1 + 1 * (y 0).val = (y 0).val; rw [(idx_facts0 t).2.2.2.2.2.1.1]; omega
  | ⟨1, _⟩ => show win0_5.index t (1 : Fin 2) * 128 + 1 * (y 1).val = (y 1).val; rw [(idx_facts0 t).2.2.2.2.2.1.2]; omega

/-- A block's perceptron value at its row `p` is the perceptron of whole arrays at row `r`, when the two row-blocked
    blocks hold the arrays' rows `r` at `p` and the four others are the arrays. -/
private theorem blkVal_eq (A X : SMat.Idx → EReal) (W1 W2 : SSq.Idx → EReal) (B1 B2 : SRow.Idx → EReal)
    (x0 x1 : Vec Ideal S2000x128 .f32) (x2 : Vec Ideal S128x128 .f32) (x3 : Vec Ideal S1x128 .f32)
    (x4 : Vec Ideal S128x128 .f32) (x5 : Vec Ideal S1x128 .f32) (r : Fin NR) (p : Fin 2000)
    (h0 : ∀ l, x0 (ix2 p l) = A (ix2 r l)) (h1 : ∀ l, x1 (ix2 p l) = X (ix2 r l))
    (h2 : ∀ y, x2 y = W1 y) (h3 : ∀ y, x3 y = B1 y) (h4 : ∀ y, x4 y = W2 y) (h5 : ∀ y, x5 y = B2 y) (q : Fin 128) :
    blkVal x0 x1 x2 x3 x4 x5 p q
      = mlp (mat A) (mat X) (sqm W1) (fun k => B1 (ix2 0 k)) (sqm W2) (fun k => B2 (ix2 0 k)) r q := by
  have e0 : (fun l => x0 (ix2 p l)) = mat A r := funext h0
  have e1 : (fun l => x1 (ix2 p l)) = mat X r := funext h1
  have e2 : (fun l k => x2 (ix2 l k)) = sqm W1 := funext fun l => funext fun k => h2 _
  have e3 : (fun k => x3 (ix2 0 k)) = fun k => B1 (ix2 0 k) := funext fun k => h3 _
  have e4 : (fun k j => x4 (ix2 k j)) = sqm W2 := funext fun k => funext fun j => h4 _
  have e5 : (fun j => x5 (ix2 0 j)) = fun j => B2 (ix2 0 j) := funext fun j => h5 _
  unfold blkVal
  rw [mlp_eq_row, e0, e1, e2, e3, e4, e5]

/-- At point `t` the block's perceptron value at its row `p` is the entry arrays' perceptron at row `2000·t + p`. -/
private theorem blk_hM (c : Dev nD) (t : Fin cfg0.N) (p : Fin 2000) (q : Fin 128) :
    blkVal (iblk0 V c 0 t) (iblk0 V c 1 t) (iblk0 V c 2 t) (iblk0 V c 3 t) (iblk0 V c 4 t) (iblk0 V c 5 t) p q
      = hM V c (rowAt t p) q :=
  blkVal_eq (eAgg V c) (eX V c) (eW1 V c) (eW2 V c) (eB1 V c) (eB2 V c)
    (iblk0 V c 0 t) (iblk0 V c 1 t) (iblk0 V c 2 t) (iblk0 V c 3 t) (iblk0 V c 4 t) (iblk0 V c 5 t) (rowAt t p) p
    (read0_0 V c t p) (read0_1 V c t p) (read0_2 V c t) (read0_3 V c t) (read0_4 V c t) (read0_5 V c t) q

/-- After the body at point `t` the perceptron output's buffer holds, at its row `p`, the entry arrays' perceptron at
    row `2000·t + p`: in each of the three cases the buffer holds the block's perceptron values. -/
private theorem out6_at (c : Dev nD) (t : Fin cfg0.N) (p : Fin 2000) (q : Fin 128) :
    (outsAt0 V c t.val t.isLt).1 (ix2 p q) = hM V c (rowAt t p) q := by
  by_cases h0 : t.val % 50 = 0
  · have h1 : ¬t.val % 50 = 49 := by omega
    rw [outsAt0_A V c t h0 h1]
    dsimp only
    exact (out0_A_6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) p q).trans (blk_hM V c t p q)
  · by_cases h1 : t.val % 50 = 49
    · rw [outsAt0_C V c t h0 h1]
      dsimp only
      exact (out0_C_6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2 p q).trans (blk_hM V c t p q)
    · rw [outsAt0_B V c t h0 h1]
      dsimp only
      exact (out0_B_6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2 p q).trans (blk_hM V c t p q)

private theorem outsAt0_congr (c : Dev nD) (a b : ℕ) (ha : a < cfg0.N) (hb : b < cfg0.N) (e : a = b) :
    outsAt0 V c a ha = outsAt0 V c b hb := by subst e; rfl

/-- Block `t`'s sum is the sum over its 2000 rows. -/
private theorem blkSum_rowAt (g : Fin 100000 → EReal) (t : Fin cfg0.N) : blkSum g t.val = ∑ p : Fin 2000, g (rowAt t p) := by
  unfold blkSum
  rw [dif_pos (lt50 t)]
  rfl

/-- At the first point the scratch's two rows hold the block's column sums and column sums of squares. -/
private theorem scr_first (c : Dev nD) (t : Fin cfg0.N) (h0 : t.val % 50 = 0) (q : Fin 128) :
    (outsAt0 V c t.val t.isLt).2.2 (ix2 0 q) = blkSum (fun i => hM V c i q) t.val
    ∧ (outsAt0 V c t.val t.isLt).2.2 (ix2 1 q) = blkSum (fun i => hM V c i q * hM V c i q) t.val := by
  have h1 : ¬t.val % 50 = 49 := by omega
  rw [outsAt0_A V c t h0 h1, blkSum_rowAt, blkSum_rowAt]
  dsimp only
  constructor
  · refine (sout0_A_0_row0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) q).trans ?_
    rw [Finset.sum_congr rfl fun p _ => blk_hM V c t p q]
  · refine (sout0_A_0_row1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) q).trans ?_
    rw [Finset.sum_congr rfl fun p _ => by rw [blk_hM V c t p q]]

/-- At a later point each row holds what the point before left plus the block's column sums (of squares). -/
private theorem scr_later (c : Dev nD) (t : Fin cfg0.N) (n : ℕ) (hn : n < cfg0.N) (ht : t.val = n + 1) (q : Fin 128) :
    (outsAt0 V c t.val t.isLt).2.2 (ix2 0 q)
        = (outsAt0 V c n hn).2.2 (ix2 0 q) + blkSum (fun i => hM V c i q) t.val
    ∧ (outsAt0 V c t.val t.isLt).2.2 (ix2 1 q)
        = (outsAt0 V c n hn).2.2 (ix2 1 q) + blkSum (fun i => hM V c i q * hM V c i q) t.val := by
  have h50 := lt50 t
  have h0 : ¬t.val % 50 = 0 := by omega
  have e : outsAt0 V c (t.val - 1) (Nat.lt_of_le_of_lt (Nat.sub_le _ _) t.isLt) = outsAt0 V c n hn :=
    outsAt0_congr V c _ _ _ _ (by omega)
  by_cases h1 : t.val % 50 = 49
  · rw [outsAt0_C V c t h0 h1, blkSum_rowAt, blkSum_rowAt]
    dsimp only
    constructor
    · refine (sout0_C_0_row0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2 q).trans ?_
      rw [e, Finset.sum_congr rfl fun p _ => blk_hM V c t p q]
    · refine (sout0_C_0_row1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2 q).trans ?_
      rw [e, Finset.sum_congr rfl fun p _ => by rw [blk_hM V c t p q]]
  · rw [outsAt0_B V c t h0 h1, blkSum_rowAt, blkSum_rowAt]
    dsimp only
    constructor
    · refine (sout0_B_0_row0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2 q).trans ?_
      rw [e, Finset.sum_congr rfl fun p _ => blk_hM V c t p q]
    · refine (sout0_B_0_row1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2 q).trans ?_
      rw [e, Finset.sum_congr rfl fun p _ => by rw [blk_hM V c t p q]]

/-- A quantity that starts at `b 0` and gains `b (n+1)` at each step is the sum of the `b`s so far. -/
private theorem acc_sum (N : ℕ) (s : (n : ℕ) → n < N → EReal) (b : ℕ → EReal) (hpos : 0 < N) (hA : s 0 hpos = b 0)
    (hS : ∀ (n : ℕ) (hn : n + 1 < N), s (n + 1) hn = s n (Nat.lt_of_succ_lt hn) + b (n + 1)) :
    ∀ (n : ℕ) (hn : n < N), s n hn = ∑ t' ∈ Finset.range (n + 1), b t'
  | 0, hn => by rw [Finset.sum_range_one]; exact hA
  | n + 1, hn => by rw [Finset.sum_range_succ, hS n hn, acc_sum N s b hpos hA hS n]

/-- After point `n` the scratch's row 0 holds each column's sum over the rows of blocks `0 … n`, and row 1 the sums
    of squares: by induction on the point. -/
private theorem scratch_sums (c : Dev nD) (q : Fin 128) (n : ℕ) (hn : n < cfg0.N) :
    (outsAt0 V c n hn).2.2 (ix2 0 q) = ∑ t' ∈ Finset.range (n + 1), blkSum (fun i => hM V c i q) t'
    ∧ (outsAt0 V c n hn).2.2 (ix2 1 q) = ∑ t' ∈ Finset.range (n + 1), blkSum (fun i => hM V c i q * hM V c i q) t' := by
  have hpos : 0 < cfg0.N := Nat.lt_of_le_of_lt (Nat.zero_le n) hn
  exact ⟨acc_sum cfg0.N (fun n hn => (outsAt0 V c n hn).2.2 (ix2 0 q)) (fun t' => blkSum (fun i => hM V c i q) t') hpos
      (scr_first V c ⟨0, hpos⟩ (Nat.zero_mod 50) q).1
      (fun n hn => (scr_later V c ⟨n + 1, hn⟩ n (Nat.lt_of_succ_lt hn) rfl q).1) n hn,
    acc_sum cfg0.N (fun n hn => (outsAt0 V c n hn).2.2 (ix2 1 q)) (fun t' => blkSum (fun i => hM V c i q * hM V c i q) t') hpos
      (scr_first V c ⟨0, hpos⟩ (Nat.zero_mod 50) q).2
      (fun n hn => (scr_later V c ⟨n + 1, hn⟩ n (Nat.lt_of_succ_lt hn) rfl q).2) n hn⟩

/-! ## The perceptron output array -/

/-- The perceptron of the entry arrays, as contents of the output array. -/
private def G6 (c : Dev nD) : S100000x128.Idx → EReal :=
  fun idx => hM V c ⟨(idx 0).val, idx2_lt0 idx⟩ ⟨(idx 1).val, idx2_lt1 idx⟩

/-- Read through point `t`'s block, it is the perceptron at rows `2000·t …`. -/
private theorem G6_emb (c : Dev nD) (t : Fin cfg0.N) (p : Fin 2000) (q : Fin 128) :
    G6 V c (((cfg0.win 6).blk t).view.emb (ix2 p q)) = hM V c (rowAt t p) q := by
  unfold G6
  exact congrArg₂ (hM V c)
    (Fin.ext (by show win0_6.index t (0 : Fin 2) * 2000 + 1 * p.val = 2000 * t.val + p.val
                 rw [(idx_facts0 t).2.2.2.2.2.2.1.1]; omega))
    (Fin.ext (by show win0_6.index t (1 : Fin 2) * 128 + 1 * q.val = q.val
                 rw [(idx_facts0 t).2.2.2.2.2.2.1.2]; omega))

/-- What every point writes back is its block of that array. -/
private theorem flushed6 (c : Dev nD) (t : Fin cfg0.N) :
    (dat0 (F := Ideal) V c).flushed 6 t = ((cfg0.win 6).blk t).view.read (Elt Ideal) (G6 V c) := by
  show (cfg0.win 6).cut (cfg0.grid.coords t) ((dat0 V c).after 6 t) = _
  rw [after0_6]
  funext y
  rw [View.read_apply]
  show (outsAt0 V c t.val t.isLt).1 y = G6 V c (((cfg0.win 6).blk t).view.emb y)
  obtain ⟨p, q, rfl⟩ : ∃ (p : Fin 2000) (q : Fin 128), y = ix2 p q := ⟨_, _, eq_ix2 y⟩
  rw [out6_at V c t p q, G6_emb V c t p q]

/-- An index of the array is in point `t`'s block when each coordinate is in the block's range on its axis. -/
private theorem mem_blk6 (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v16_0).slice (win0_6.rect t)).set ↔ _
  rw [View.set_slice_whole, Rect.mem_set_unit]
  exact Iff.rfl

/-- Row `r` is in block `r / 2000`: the 50 blocks tile the rows. -/
private theorem cover6 (i : S100000x128.Idx) :
    ∃ t : Fin cfg0.N, (cfg0.win 6).flush t = true ∧ i ∈ ((cfg0.win 6).blk t).view.set := by
  have hi0 : (i 0).val < 100000 := idx2_lt0 i
  have hi1 : (i 1).val < 128 := idx2_lt1 i
  have hN : cfg0.N = 50 := N_0
  have ht : (i 0).val / 2000 < cfg0.N := by omega
  refine ⟨⟨(i 0).val / 2000, ht⟩, flush0_6 _, ?_⟩
  rw [mem_blk6]
  intro a
  have e := (idx_facts0 ⟨(i 0).val / 2000, ht⟩).2.2.2.2.2.2.1
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    rw [e.1]; dsimp only; omega
  | ⟨1, _⟩ =>
    show win0_6.index ⟨(i 0).val / 2000, ht⟩ (1 : Fin 2) * 128 ≤ (i 1).val ∧ (i 1).val < win0_6.index ⟨(i 0).val / 2000, ht⟩ (1 : Fin 2) * 128 + 128
    rw [e.2]; omega

/-- The perceptron output array after the region. -/
theorem arr0_6 (c : Dev nD) (i : Fin 100000) (j : Fin 128) :
    (dat0 (F := Ideal) V c).arrAt 6 cfg0.N (ix2 i j) = hM V c i j := by
  rw [(dat0 (F := Ideal) V c).arrAt_eq_of_cover 6 (G6 V c) (fun t _ => flushed6 V c t) cover6]
  rfl

/-! ## The statistics array -/

/-- Each column's sum over all rows in row 0, its sum of squares in row 1, as contents of the statistics array. -/
private def G7 (c : Dev nD) : S2x128.Idx → EReal :=
  fun idx => if (idx 0).val = 0 then colSum (hM V c) ⟨(idx 1).val, idx2_lt1 idx⟩
    else colSum (fun i j => hM V c i j * hM V c i j) ⟨(idx 1).val, idx2_lt1 idx⟩

/-- The last point. -/
private theorem lastPt (t : Fin cfg0.N) (hf : (cfg0.win 7).flush t = true) : t.val = 49 := by
  have h := (flush0_7 t).mp hf
  have := lt50 t
  omega

/-- At the last point the statistics buffer is the scratch as that point leaves it. -/
private theorem stat_eq_scratch (c : Dev nD) (t : Fin cfg0.N) (h0 : ¬t.val % 50 = 0) (h1 : t.val % 50 = 49) :
    (outsAt0 V c t.val t.isLt).2.1 = (outsAt0 V c t.val t.isLt).2.2 := by
  rw [outsAt0_C V c t h0 h1]
  dsimp only
  exact out0_C_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2

/-- The one point that writes the statistics window back writes the column sums and sums of squares over all rows:
    its block is the whole array, and the scratch then holds the sums over all 50 blocks. -/
private theorem flushed7 (c : Dev nD) (t : Fin cfg0.N) (hf : (cfg0.win 7).flush t = true) :
    (dat0 (F := Ideal) V c).flushed 7 t = ((cfg0.win 7).blk t).view.read (Elt Ideal) (G7 V c) := by
  have h49 : t.val = 49 := lastPt t hf
  show (cfg0.win 7).cut (cfg0.grid.coords t) ((dat0 V c).after 7 t) = _
  rw [after0_7, stat_eq_scratch V c t (by omega) (by omega)]
  funext y
  rw [View.read_apply]
  show (outsAt0 V c t.val t.isLt).2.2 y = G7 V c (((cfg0.win 7).blk t).view.emb y)
  obtain ⟨r, q, rfl⟩ : ∃ (r : Fin 2) (q : Fin 128), y = ix2 r q := ⟨_, _, eq_ix2 y⟩
  have hs := scratch_sums V c q t.val t.isLt
  rw [show t.val + 1 = 50 from by omega, sum_blkSum, sum_blkSum] at hs
  have e0 : ((((cfg0.win 7).blk t).view.emb (ix2 r q)) 0).val = r.val := by
    show win0_7.index t (0 : Fin 2) * 2 + 1 * r.val = r.val
    rw [(idx_facts0 t).2.2.2.2.2.2.2.1]; omega
  have e1 : (⟨((((cfg0.win 7).blk t).view.emb (ix2 r q)) 1).val, idx2_lt1 _⟩ : Fin 128) = q := Fin.ext (by
    show win0_7.index t (1 : Fin 2) * 128 + 1 * q.val = q.val
    rw [(idx_facts0 t).2.2.2.2.2.2.2.2]; omega)
  unfold G7
  rw [e0, e1]
  match r with
  | ⟨0, _⟩ => rw [if_pos rfl]; exact hs.1
  | ⟨1, _⟩ => rw [if_neg (by show ¬((1 : ℕ) = 0); omega)]; exact hs.2

/-- An index of the statistics array is in point `t`'s block when each coordinate is in the block's range. -/
private theorem mem_blk7 (t : Fin cfg0.N) (i : S2x128.Idx) :
    i ∈ ((cfg0.win 7).blk t).view.set ↔ ∀ a : Fin 2, win0_7.index t a * S2x128.size a ≤ (i a).val ∧ (i a).val < win0_7.index t a * S2x128.size a + S2x128.size a := by
  show i ∈ ((View.whole main_v16_1).slice (win0_7.rect t)).set ↔ _
  rw [View.set_slice_whole, Rect.mem_set_unit]
  exact Iff.rfl

/-- The last point's block is the whole statistics array. -/
private theorem cover7 (i : S2x128.Idx) :
    ∃ t : Fin cfg0.N, (cfg0.win 7).flush t = true ∧ i ∈ ((cfg0.win 7).blk t).view.set := by
  have hi0 : (i 0).val < 2 := idx2_lt0 i
  have hi1 : (i 1).val < 128 := idx2_lt1 i
  have hN : cfg0.N = 50 := N_0
  have ht : 49 < cfg0.N := by omega
  refine ⟨⟨49, ht⟩, (flush0_7 _).mpr rfl, ?_⟩
  rw [mem_blk7]
  intro a
  have e := (idx_facts0 ⟨49, ht⟩).2.2.2.2.2.2.2
  match a with
  | ⟨0, _⟩ =>
    show win0_7.index ⟨49, ht⟩ (0 : Fin 2) * 2 ≤ (i 0).val ∧ (i 0).val < win0_7.index ⟨49, ht⟩ (0 : Fin 2) * 2 + 2
    rw [e.1]; omega
  | ⟨1, _⟩ =>
    show win0_7.index ⟨49, ht⟩ (1 : Fin 2) * 128 ≤ (i 1).val ∧ (i 1).val < win0_7.index ⟨49, ht⟩ (1 : Fin 2) * 128 + 128
    rw [e.2]; omega

/-- The statistics array after the region. -/
private theorem arr7_eq (c : Dev nD) : (dat0 (F := Ideal) V c).arrAt 7 cfg0.N = G7 V c :=
  (dat0 (F := Ideal) V c).arrAt_eq_of_cover 7 (G7 V c) (flushed7 V c) cover7

/-- The statistics array after the region: row 0 the column sums, -/
theorem arr0_7_row0 (c : Dev nD) (j : Fin 128) :
    (dat0 (F := Ideal) V c).arrAt 7 cfg0.N (ix2 0 j) = colSum (hM V c) j := by
  rw [arr7_eq V c]
  unfold G7
  exact if_pos (show ((ix2 (0 : Fin 2) j : S2x128.Idx) 0).val = 0 from rfl)

/-- row 1 the column sums of squares. -/
theorem arr0_7_row1 (c : Dev nD) (j : Fin 128) :
    (dat0 (F := Ideal) V c).arrAt 7 cfg0.N (ix2 1 j) = colSum (fun i j => hM V c i j * hM V c i j) j := by
  rw [arr7_eq V c]
  unfold G7
  exact if_neg (show ¬((ix2 (1 : Fin 2) j : S2x128.Idx) 0).val = 0 from Nat.one_ne_zero)

end Cert.KernelIdeal.Fr

end
-- ==== Proof.KI.Reg1.lean ====
/-
  The second kernel region (the normalise-and-add-back kernel), at any float instance and at any contents `V` of the
  core's buffers when the region is entered.

  At grid point `t` the region stages rows `2000·t … 2000·t + 1999` of the perceptron's output `h` and of the features
  `x`, and the whole scale and shift rows; the body stores `h·scale + shift + x` (scale and shift broadcast down the
  rows) over the whole output block, which the pipeline writes back to rows `2000·t …` of the result. The body keeps
  nothing between points, so the region's invariant is only the buffers it never touches and the generator register.
-/
import proofs.«132064_j22196390986098_1_alg».proof.Proof.Gen.KernelIdeal.Launch
import proofs.«132064_j22196390986098_1_alg».proof.Proof.Gen.KernelIdeal.Skeleton
import proofs.«132064_j22196390986098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the elaborator recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or the
    block index has not moved since the fetch, for any proof data whose array is the entry contents and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output's buffer -/

/-- The whole 2000×128 block, and the whole 1×128 row. -/
abbrev rB1 : Rect S2000x128 := Rect.unit (s := S2000x128) ![0, 0] S2000x128.size inb_S2000x128_S2000x128_0_0
abbrev rR1 : Rect S1x128 := Rect.unit (s := S1x128) ![0, 0] S1x128.size inb_S1x128_S1x128_0_0

/-- The output's staging buffer after the body: one store of the whole block, `h·scale + shift + x` of the four
    input blocks (`x0` the block of `h`, `x1` of `x`, `x2` the scale row, `x3` the shift row). -/
def out1_4 (x0 x1 : Vec F S2000x128 .f32) (x2 x3 : Vec F S1x128 .f32) : Vec F S2000x128 .f32 :=
  View.canon [⟨rB1, k1_pay1 (View.ld x0 rB1) (View.ld x2 rR1) (View.ld x3 rR1) (View.ld x1 rB1)⟩]

/-- The one store covers the buffer. -/
theorem cover1_4 (p0 : Vec F S2000x128 .f32) (y : S2000x128.Idx) :
    ∃ pc ∈ ([⟨rB1, p0⟩] : List (View.Piece (Elt F) S2000x128 .f32)), y ∈ pc.1.set :=
  View.cover_of_tiled [⟨rB1, p0⟩] S2000x128.size (by rfl) y

/-! ## The body's triple -/

set_option maxHeartbeats 1000000 in
/-- On whole staging memrefs, the inputs' at contents `x0 … x3` and the output's at anything, the body runs to its
    continuation with the inputs as they were and the output at `out1_4` of them. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S2000x128 .f32) (harg5 : arg5.IsWhole)
    (x0 x1 : Vec F S2000x128 .f32) (x2 x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__bn_residual_kernel i arg1 harg1 arg2 harg2 arg3 harg3 arg4 harg4 arg5 harg5) K := by
  simp only [cc1__bn_residual_kernel_eq_skeleton]; unfold cc1__bn_residual_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The region's proof data -/

/-- The arrays as the region finds them; after the body at point `t` each input's buffer at its block and the
    output's at `out1_4` of the input blocks; the invariant the buffers the region never touches and the generator
    register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Val1.lean ====
/-
  The second kernel region's result array over the extended reals, as a function of the contents the region is entered
  with: at row `i`, feature `j` it holds `h[i,j]·scale[j] + shift[j] + x[i,j]` (block `t` covers rows
  `2000·t … 2000·t + 1999`; the 50 blocks tile the rows; the scale and shift rows are staged whole at every point).
-/
import proofs.«132064_j22196390986098_1_alg».proof.Proof.KI.Reg1
import proofs.«132064_j22196390986098_1_alg».proof.Proof.KI.Arrays
import Idealize.ShloMosaic.Lib.ValueIdx
import Idealize.ShloMosaic.Lib.ValueLayout
import Idealize.ShloMosaic.Lib.Pipeline.Value
import Idealize.ShloMosaic.PureOps.Ideal.Laws

-- membership in a rectangle of 2000 rows: the elaborator recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec Idealize.ShloMosaic.ValueIdx

variable (V : (c : Dev nD) → (b : Ref sig .tc) → Buf (Elt Ideal) ((c : Thread nD τ).loc b))

/-- The zero offsets of a whole-buffer access, as a constant function. -/
theorem hz1 : (![0, 0] : Fin 2 → Nat) = fun _ => 0 := funext fun a => by fin_cases a <;> rfl

/-- The body's stored value at row `p`, feature `q` of the block: `h·scale + shift + x`, the scale and shift rows
    read at feature `q`. -/
theorem pay1_apply (x0 x1 : Vec Ideal S2000x128 .f32) (x2 x3 : Vec Ideal S1x128 .f32) (p : Fin 2000) (q : Fin 128) :
    k1_pay1 (F := Ideal) x0 x2 x3 x1 (ix2 p q)
      = (x0 (ix2 p q) * x2 (ix2 (0 : Fin 1) q) + x3 (ix2 (0 : Fin 1) q)) + x1 (ix2 p q) := by
  unfold k1_pay1
  rw [addf_apply, addf_apply, mulf_apply, shapeCast_self, shapeCast_self, shapeCast_self, broadcastTo_1b_ab_apply,
    broadcastTo_1b_ab_apply]

/-- The block indices of the five windows at point `t`: the two matrices' and the result's blocks are block row `t`,
    the two rows are staged whole. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point `t` is rows `2000·t … 2000·t + 1999` of the perceptron output. -/
theorem iblk1_0_apply (c : Dev nD) (t : Fin cfg1.N) (x : S2000x128.Idx) (k : SMat.Idx)
    (hk0 : (k 0).val = 2000 * t.val + (x 0).val) (hk1 : (k 1).val = (x 1).val) :
    (iblk1 (F := Ideal) V c 0 t : Vec Ideal S2000x128 .f32) x = eH V c k := by
  obtain ⟨e0, e1, -⟩ := idx_facts1 t
  unfold iblk1
  rw [View.read_apply]
  show V c main_v16_0 _ = V c main_v16_0 _
  congr 1
  funext a
  apply Fin.ext
  match a with
  | ⟨0, _⟩ => show win1_0.index t (0 : Fin 2) * 2000 + 1 * (x 0).val = (k 0).val; rw [e0, hk0]; omega
  | ⟨1, _⟩ => show win1_0.index t (1 : Fin 2) * 128 + 1 * (x 1).val = (k 1).val; rw [e1, hk1]; omega

/-- Window 1's block at point `t` is the same rows of the features. -/
theorem iblk1_1_apply (c : Dev nD) (t : Fin cfg1.N) (x : S2000x128.Idx) (k : SMat.Idx)
    (hk0 : (k 0).val = 2000 * t.val + (x 0).val) (hk1 : (k 1).val = (x 1).val) :
    (iblk1 (F := Ideal) V c 1 t : Vec Ideal S2000x128 .f32) x = eX V c k := by
  obtain ⟨-, -, e0, e1, -⟩ := idx_facts1 t
  unfold iblk1
  rw [View.read_apply]
  show V c main_arg0 _ = V c main_arg0 _
  congr 1
  funext a
  apply Fin.ext
  match a with
  | ⟨0, _⟩ => show win1_1.index t (0 : Fin 2) * 2000 + 1 * (x 0).val = (k 0).val; rw [e0, hk0]; omega
  | ⟨1, _⟩ => show win1_1.index t (1 : Fin 2) * 128 + 1 * (x 1).val = (k 1).val; rw [e1, hk1]; omega

/-- Window 2's block at every point is the whole scale row. -/
theorem iblk1_2_apply (c : Dev nD) (t : Fin cfg1.N) (x : S1x128.Idx) (k : SRow.Idx)
    (hk0 : (k 0).val = (x 0).val) (hk1 : (k 1).val = (x 1).val) :
    (iblk1 (F := Ideal) V c 2 t : Vec Ideal S1x128 .f32) x = eSc V c k := by
  obtain ⟨-, -, -, -, e0, e1, -⟩ := idx_facts1 t
  unfold iblk1
  rw [View.read_apply]
  show V c main_v33 _ = V c main_v33 _
  congr 1
  funext a
  apply Fin.ext
  match a with
  | ⟨0, _⟩ => show win1_2.index t (0 : Fin 2) * 1 + 1 * (x 0).val = (k 0).val; rw [e0, hk0]; omega
  | ⟨1, _⟩ => show win1_2.index t (1 : Fin 2) * 128 + 1 * (x 1).val = (k 1).val; rw [e1, hk1]; omega

/-- Window 3's block at every point is the whole shift row. -/
theorem iblk1_3_apply (c : Dev nD) (t : Fin cfg1.N) (x : S1x128.Idx) (k : SRow.Idx)
    (hk0 : (k 0).val = (x 0).val) (hk1 : (k 1).val = (x 1).val) :
    (iblk1 (F := Ideal) V c 3 t : Vec Ideal S1x128 .f32) x = eSh V c k := by
  obtain ⟨-, -, -, -, -, -, e0, e1, -⟩ := idx_facts1 t
  unfold iblk1
  rw [View.read_apply]
  show V c main_v34 _ = V c main_v34 _
  congr 1
  funext a
  apply Fin.ext
  match a with
  | ⟨0, _⟩ => show win1_3.index t (0 : Fin 2) * 1 + 1 * (x 0).val = (k 0).val; rw [e0, hk0]; omega
  | ⟨1, _⟩ => show win1_3.index t (1 : Fin 2) * 128 + 1 * (x 1).val = (k 1).val; rw [e1, hk1]; omega

/-- The whole result array as a function of the entry arrays: at row `i`, feature `j` it is
    `h[i,j]·scale[0,j] + shift[0,j] + x[i,j]`. -/
def res1 (c : Dev nD) : SMat.Idx → EReal := fun idx =>
  (eH V c idx * eSc V c (ix2 (0 : Fin 1) ⟨(idx 1).val, idx2_lt1 idx⟩)
      + eSh V c (ix2 (0 : Fin 1) ⟨(idx 1).val, idx2_lt1 idx⟩)) + eX V c idx

/-- The stored value of point `t` at row `p`, feature `q` of its block is the result function at row `2000·t + p`,
    feature `q`. -/
theorem blk1_val (c : Dev nD) (t : Fin cfg1.N) (p : Fin 2000) (q : Fin 128) (k : SMat.Idx)
    (k0 : (k 0).val = 2000 * t.val + p.val) (k1 : (k 1).val = q.val)
    (x0 x1 : Vec Ideal S2000x128 .f32) (x2 x3 : Vec Ideal S1x128 .f32)
    (h0 : x0 = iblk1 (F := Ideal) V c 0 t) (h1 : x1 = iblk1 (F := Ideal) V c 1 t)
    (h2 : x2 = iblk1 (F := Ideal) V c 2 t) (h3 : x3 = iblk1 (F := Ideal) V c 3 t) :
    (x0 (ix2 p q) * x2 (ix2 (0 : Fin 1) q) + x3 (ix2 (0 : Fin 1) q)) + x1 (ix2 p q) = res1 V c k := by
  unfold res1
  rw [h0, h1, h2, h3, iblk1_0_apply V c t (ix2 p q) k k0 k1, iblk1_1_apply V c t (ix2 p q) k k0 k1,
    iblk1_2_apply V c t (ix2 (0 : Fin 1) q) (ix2 (0 : Fin 1) ⟨(k 1).val, idx2_lt1 k⟩) rfl k1,
    iblk1_3_apply V c t (ix2 (0 : Fin 1) q) (ix2 (0 : Fin 1) ⟨(k 1).val, idx2_lt1 k⟩) rfl k1]

/-- What point `t` writes back is block `t` of the result function. -/
theorem flushed1_4_eq (c : Dev nD) (t : Fin cfg1.N) :
    (dat1 (F := Ideal) V c).flushed 4 t = ((cfg1.win 4).blk t).view.read (Elt Ideal) (res1 V c) := by
  show (cfg1.win 4).cut (cfg1.grid.coords t) ((dat1 (F := Ideal) V c).after 4 t) = _
  rw [after1_4]
  unfold out1_4
  rw [View.canon_unit_zero hz1]
  simp only [View.ld_unit_zero (S := S2000x128) hz1, View.ld_unit_zero (S := S1x128) hz1]
  obtain ⟨-, -, -, -, -, -, -, -, e0, e1⟩ := idx_facts1 t
  funext y
  obtain ⟨p, q, rfl⟩ : ∃ (p : Fin 2000) (q : Fin 128), y = ix2 p q := ⟨y 0, y 1, eq_ix2 y⟩
  show k1_pay1 (F := Ideal) (iblk1 V c 0 t) (iblk1 V c 2 t) (iblk1 V c 3 t) (iblk1 V c 1 t) (ix2 p q)
      = res1 V c (((cfg1.win 4).blk t).view.emb (ix2 p q))
  refine (pay1_apply _ _ _ _ p q).trans ?_
  refine blk1_val V c t p q _ ?_ ?_ _ _ _ _ rfl rfl rfl rfl
  · show win1_4.index t (0 : Fin 2) * 2000 + 1 * p.val = _; rw [e0]; omega
  · show win1_4.index t (1 : Fin 2) * 128 + 1 * q.val = _; rw [e1]; omega

/-- An index of the array is in point `t`'s block iff each coordinate is in the block's range on its axis. -/
theorem mem_blk1_4 (t : Fin cfg1.N) (i : SMat.Idx) :
    i ∈ ((cfg1.win 4).blk t).view.set
      ↔ ∀ a : Fin 2, win1_4.index t a * S2000x128.size a ≤ (i a).val
          ∧ (i a).val < win1_4.index t a * S2000x128.size a + S2000x128.size a := by
  show i ∈ ((View.whole main_v35).slice (win1_4.rect t)).set ↔ _
  rw [View.set_slice_whole, Rect.mem_set_unit]
  exact Iff.rfl

/-- Every index of the array is in some point's block: row `r` is in block `r / 2000`. -/
theorem cover1_4_arr (i : SMat.Idx) :
    ∃ t : Fin cfg1.N, (cfg1.win 4).flush t = true ∧ i ∈ ((cfg1.win 4).blk t).view.set := by
  have hi0 : (i 0).val < 100000 := idx2_lt0 i
  have hi1 : (i 1).val < 128 := idx2_lt1 i
  have hN : cfg1.N = 50 := N_1
  refine ⟨⟨(i 0).val / 2000, by rw [hN]; omega⟩, flush1_4 _, ?_⟩
  rw [mem_blk1_4]
  obtain ⟨-, -, -, -, -, -, -, -, e0, e1⟩ := idx_facts1 ⟨(i 0).val / 2000, by rw [hN]; omega⟩
  intro a
  match a with
  | ⟨0, _⟩ =>
    show win1_4.index _ (0 : Fin 2) * 2000 ≤ (i 0).val ∧ (i 0).val < win1_4.index _ (0 : Fin 2) * 2000 + 2000
    rw [e0]; show (i 0).val / 2000 * 2000 ≤ (i 0).val ∧ (i 0).val < (i 0).val / 2000 * 2000 + 2000; omega
  | ⟨1, _⟩ =>
    show win1_4.index _ (1 : Fin 2) * 128 ≤ (i 1).val ∧ (i 1).val < win1_4.index _ (1 : Fin 2) * 128 + 128
    rw [e1]; omega

/-- The array after the region is the result function. -/
theorem final1_4 (c : Dev nD) : (dat1 (F := Ideal) V c).arrAt 4 cfg1.N = res1 V c :=
  (dat1 (F := Ideal) V c).arrAt_eq_of_cover 4 (res1 V c) (fun t _ => flushed1_4_eq V c t) cover1_4_arr

/-- The result array after the region (`main_v16_0` the perceptron output, `main_v33` / `main_v34` the scale and
    shift rows, `main_arg0` the features). -/
theorem arr1_4 (c : Dev nD) (i : Fin 100000) (j : Fin 128) :
    (dat1 (F := Ideal) V c).arrAt 4 cfg1.N (ix2 i j)
      = (eH V c (ix2 i j) * eSc V c (ix2 0 j) + eSh V c (ix2 0 j)) + eX V c (ix2 i j) := by
  have h := congrFun (final1_4 V c) (ix2 i j)
  rw [h]
  rfl

end Cert.KernelIdeal.Fr

end
-- ==== Proof.KI.Run.lean ====
/-
  The whole program run: host operations, the first kernel region, host operations, the second kernel region.

  The core's unscoped buffers are followed from the launch memory through the four stretches: a host stretch leaves
  what its operations compute; a region leaves each of its arrays at what its write-backs fold to and every other
  buffer as entered. Each region is a segment entered from "every unscoped buffer at the boundary's contents, the
  generator register at some state, nothing owed" and left at the next boundary's; the first region's invariant
  carries its scratch accumulator between grid points, which enters and leaves as one more scoped buffer at anything.
  The conclusion reads EVERY unscoped buffer at the last boundary's contents, so it serves both the claim that the
  arguments end unchanged and the claim about the result's value.
-/
import proofs.«132064_j22196390986098_1_alg».proof.Proof.KI.Reg0
import proofs.«132064_j22196390986098_1_alg».proof.Proof.KI.Reg1
import proofs.«132064_j22196390986098_1_alg».proof.Proof.Gen.KernelIdeal.Regions

-- membership in a rectangle of 2000 rows: the elaborator recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => m ((c : Dev nD), b)
/-- After the first host stretch (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- An input window's array leaves the first region as it entered. -/
theorem W2_in0 (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W4_in1 (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### The arguments end as launched: no host operation writes one, and a region either reads it through an input
    window or bypasses it -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_in1 m c 1 rfl
    _ = W2 m c (Proc.devRef .tc main_arg0) := StableHlo.after_of_writes_sub hostOps1 _ hostOps1_writes (by decide)
    _ = W1 m c (Proc.devRef .tc main_arg0) := W2_in0 m c 1 rfl
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_in0 m c 2 rfl
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_in0 m c 4 rfl
    _ = W0 m c (Proc.devRef .tc main_arg4) := StableHlo.after_of_writes_sub hostOps0 _ hostOps0_writes (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

/-! ## The proof data family and the thread state -/

abbrev adm : (p : Fin 2) → (pcfgs (F := F) p).Adm := fun p => (cfgs p).toPCfg_adm
/-- Every region's proof data at its entry contents: a literal match, so that a numeral index reduces. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

-- unification with the pinned configuration may unfold plain definitions in a metavariable's type
set_option backward.isDefEq.respectTransparency.types false in
/-- REGION 0 over the thread state: entered from every unscoped buffer at `W1`, left at `W2`. Its arrays
    are split out of the unscoped buffers and put back at the exit contents; the generator register goes into the
    region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (V1 m) c)
    unfold Pipeline.ΦA
    iintro ⟨Hp, -, Hr⟩
    isplitl [Hr]; · iexact Hr
    iexact Hp
  hout c := by
    refine (hout0 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- REGION 1 over the thread state: entered from every unscoped buffer at `W3`, left at `W4`. Its arrays
    are split out of the unscoped buffers and put back at the exit contents; the generator register goes into the
    region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

-- the launch theorem's implicit arguments are found by unifying its conclusion with this one
set_option backward.isDefEq.respectTransparency.types false in
/-- From any memory with zero counters, every weakly fair execution of the program terminates, nothing faulting, and
    every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The eight argument arrays end as launched. -/
theorem args_kept (s : MemSt nD τ sig (Elt F)) (c : Dev nD)
    (h : ∀ b ∈ Pipeline.ucRefs τ sig, s.mem (((c : Thread nD τ)).1, b) = W4 m c b) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7) :=
  ⟨(h _ (mem_uc main_arg0 (by decide))).trans (W4_main_arg0 m c),
    (h _ (mem_uc main_arg1 (by decide))).trans (W4_main_arg1 m c),
    (h _ (mem_uc main_arg2 (by decide))).trans (W4_main_arg2 m c),
    (h _ (mem_uc main_arg3 (by decide))).trans (W4_main_arg3 m c),
    (h _ (mem_uc main_arg4 (by decide))).trans (W4_main_arg4 m c),
    (h _ (mem_uc main_arg5 (by decide))).trans (W4_main_arg5 m c),
    (h _ (mem_uc main_arg6 (by decide))).trans (W4_main_arg6 m c),
    (h _ (mem_uc main_arg7 (by decide))).trans (W4_main_arg7 m c)⟩

/-- THE FRAME, at any float instance: the program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => args_kept m r.2 c (h c)) (run_all m ρ)

/-- The result buffer ends at what the second region's write-backs fold to. -/
theorem result_at (s : MemSt nD τ sig (Elt F)) (c : Dev nD)
    (h : ∀ b ∈ Pipeline.ucRefs τ sig, s.mem (((c : Thread nD τ)).1, b) = W4 m c b) :
    s.mem ((c.tc : Thread nD τ).loc main_v35) = (dat1 (V3 m) c).arrAt 4 cfg1.N :=
  (h _ (mem_uc main_v35 (by decide))).trans (W4_arr m c 4)

end Cert.KernelIdeal.Fr

end
-- ==== Proof.KI.ValHost.lean ====
/-
  What the two host stretches leave, over the extended reals.

  Before the first region: the aggregated features (the scatter-sum of gathered rows: the SAME composed operations the
  reference applies, so stated as the reference's own stage and never opened), and the two bias vectors reshaped to
  rows. Between the regions: the mean `s₀/N`, the variance `s₁/N − mean·mean`, the scale `γ·rsqrt(var + ε)` and the
  shift `β − mean·scale`, each reshaped to a row, from the statistics array `(s₀, s₁)` the first region leaves; the
  perceptron output array and the features pass through untouched.
-/
import proofs.«132064_j22196390986098_1_alg».proof.Proof.KI.Run
import proofs.«132064_j22196390986098_1_alg».proof.Proof.Gen.ReferenceIdeal.Read
import proofs.«132064_j22196390986098_1_alg».proof.Proof.KI.Arrays
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

-- membership in a rectangle of 2000 rows: the elaborator recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec Idealize.ShloMosaic.ValueIdx

variable (m : (ℓ : Loc nD τ sig) → Buf (Elt Ideal) ℓ) (ρ : Dev nD → PrngReg)

/-! ## The first region's entry -/

section Aggregation
-- the scatter-sum and the gather are compared as the same operations of equal operands: neither is ever opened
attribute [local irreducible] Host.scatterAdd Host.gather

/-- The aggregated features are the reference's aggregation stage of the same two arguments. -/
theorem V1_v13 (c : Dev nD) :
    V1 (F := Ideal) m c main_v13
      = Cert.ReferenceIdeal.Read.val_main_v13 (F := Ideal) (m ((c.tc : Thread nD τ).loc main_arg0)) (m ((c.tc : Thread nD τ).loc main_arg1)) := by
  show StableHlo.after hostOps0 (W0 m c) (Proc.devRef .tc main_v13) = _
  after_results
  -- both sides are now the scatter-sum, into the zero matrix, at the destination row indices (row 1 of the edge list),
  -- of the features gathered at the source row indices (row 0, a negative index wrapped by the row count): the
  -- reference's stages spell the same operations one at a time
  unfold Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0 Cert.ReferenceIdeal.Read.val_main_cst
  rfl

end Aggregation

/-- The features and the two weight matrices are the arguments. -/
theorem V1_arg0 (c : Dev nD) : V1 (F := Ideal) m c main_arg0 = m ((c.tc : Thread nD τ).loc main_arg0) :=
  StableHlo.after_of_writes_sub hostOps0 (W0 m c) hostOps0_writes (by decide : main_arg0 ∉ hostOps0_W)
theorem V1_arg2 (c : Dev nD) : V1 (F := Ideal) m c main_arg2 = m ((c.tc : Thread nD τ).loc main_arg2) :=
  StableHlo.after_of_writes_sub hostOps0 (W0 m c) hostOps0_writes (by decide : main_arg2 ∉ hostOps0_W)
theorem V1_arg4 (c : Dev nD) : V1 (F := Ideal) m c main_arg4 = m ((c.tc : Thread nD τ).loc main_arg4) :=
  StableHlo.after_of_writes_sub hostOps0 (W0 m c) hostOps0_writes (by decide : main_arg4 ∉ hostOps0_W)

/-- The two bias rows are the bias vectors reshaped. -/
theorem V1_v14 (c : Dev nD) (k : Fin 128) :
    eB1 (V1 (F := Ideal) m) c (ix2 0 k) = aB1 m c (ix1 k) := by
  have e : (V1 (F := Ideal) m c main_v14 : SRow.Idx → EReal)
      = shapeCast SRow (m ((c.tc : Thread nD τ).loc main_arg3) : SVec.Idx → EReal) shapeCasts_S128_S1x128 := by
    show StableHlo.after hostOps0 (W0 m c) (Proc.devRef .tc main_v14) = _
    after_results; rfl
  show (V1 (F := Ideal) m c main_v14 : SRow.Idx → EReal) (ix2 0 k) = _
  rw [e]
  exact shapeCast_a_1a_apply _ _ 0 k
theorem V1_v15 (c : Dev nD) (k : Fin 128) :
    eB2 (V1 (F := Ideal) m) c (ix2 0 k) = aB2 m c (ix1 k) := by
  have e : (V1 (F := Ideal) m c main_v15 : SRow.Idx → EReal)
      = shapeCast SRow (m ((c.tc : Thread nD τ).loc main_arg5) : SVec.Idx → EReal) shapeCasts_S128_S1x128 := by
    show StableHlo.after hostOps0 (W0 m c) (Proc.devRef .tc main_v15) = _
    after_results; rfl
  show (V1 (F := Ideal) m c main_v15 : SRow.Idx → EReal) (ix2 0 k) = _
  rw [e]
  exact shapeCast_a_1a_apply _ _ 0 k

/-! ## The second region's entry -/

/-- The statistics the first region leaves: row `r` (0 the column sums, 1 the column sums of squares), feature `j`. -/
def stat (c : Dev nD) (r : Fin 2) (j : Fin 128) : EReal :=
  ((dat0 (F := Ideal) (V1 m) c).arrAt 7 cfg0.N : SStat.Idx → EReal) (ix2 r j)

/-- The perceptron output array reaches the second region as the first left it. -/
theorem V3_v16_0 (c : Dev nD) : V3 (F := Ideal) m c main_v16_0 = (dat0 (F := Ideal) (V1 m) c).arrAt 6 cfg0.N :=
  (StableHlo.after_of_writes_sub hostOps1 (W2 m c) hostOps1_writes (by decide : main_v16_0 ∉ hostOps1_W)).trans (W2_arr m c 6)

/-- The features reach it as launched. -/
theorem V3_arg0 (c : Dev nD) : V3 (F := Ideal) m c main_arg0 = m ((c.tc : Thread nD τ).loc main_arg0) :=
  calc W3 m c (Proc.devRef .tc main_arg0)
    _ = W2 m c (Proc.devRef .tc main_arg0) := StableHlo.after_of_writes_sub hostOps1 _ hostOps1_writes (by decide)
    _ = W1 m c (Proc.devRef .tc main_arg0) := W2_in0 m c 1 rfl
    _ = W0 m c (Proc.devRef .tc main_arg0) := StableHlo.after_of_writes_sub hostOps0 _ hostOps0_writes (by decide)
    _ = m ((c : Thread nD τ).loc main_arg0) := rfl

/-! ### The host's normalisation vectors, as functions of a statistics array, a scale vector and a shift vector -/

/-- The mean vector `s₀/N`: row 0 of the statistics array, as a vector, divided by the count. -/
private def hMean (S : SStat.Idx → EReal) : SVec.Idx → EReal :=
  Host.divf (F := Ideal) (φ := .f32)
    (shapeCast S128 (extractStridedSlice S1x128 ![0, 0] S slices_S2x128_S1x128_0_0) shapeCasts_S1x128_S128)
    (broadcastInDim S128 ![] bcast_S_S128 (constant (F := Ideal) S_ .f32 0x47C35000#32))

/-- The mean of squares `s₁/N`: row 1 of the statistics array, as a vector, divided by the count. -/
private def hSq (S : SStat.Idx → EReal) : SVec.Idx → EReal :=
  Host.divf (F := Ideal) (φ := .f32)
    (shapeCast S128 (extractStridedSlice S1x128 ![1, 0] S slices_S2x128_S1x128_1_0) shapeCasts_S1x128_S128)
    (broadcastInDim S128 ![] bcast_S_S128 (constant (F := Ideal) S_ .f32 0x47C35000#32))

/-- The scale vector `γ·rsqrt((s₁/N − mean·mean) + ε)`. -/
private def hScale (S : SStat.Idx → EReal) (g : SVec.Idx → EReal) : SVec.Idx → EReal :=
  mulf (F := Ideal) (φ := .f32) g
    (Host.rsqrt (addf (subf (hSq S) (mulf (hMean S) (hMean S)))
      (broadcastInDim S128 ![] bcast_S_S128 (constant (F := Ideal) S_ .f32 0x3727C5AC#32))))

/-- The shift vector `β − mean·scale`. -/
private def hShift (S : SStat.Idx → EReal) (g b : SVec.Idx → EReal) : SVec.Idx → EReal :=
  subf (F := Ideal) (φ := .f32) b (mulf (hMean S) (hScale S g))

private theorem hMean_apply (S : SStat.Idx → EReal) (j : Fin 128) :
    hMean S (ix1 j) = Ideal.div (S (ix2 0 j)) Nf := by
  unfold Nf
  show Ideal.div (shapeCast S128 (extractStridedSlice S1x128 ![0, 0] S slices_S2x128_S1x128_0_0) shapeCasts_S1x128_S128 (ix1 j))
      (Ideal.ofBits .f32 0x47C35000#32) = _
  rw [shapeCast_1a_a_apply, slice2_axis0_apply 0 S slices_S2x128_S1x128_0_0 0 j 0 rfl]

private theorem hSq_apply (S : SStat.Idx → EReal) (j : Fin 128) :
    hSq S (ix1 j) = Ideal.div (S (ix2 1 j)) Nf := by
  unfold Nf
  show Ideal.div (shapeCast S128 (extractStridedSlice S1x128 ![1, 0] S slices_S2x128_S1x128_1_0) shapeCasts_S1x128_S128 (ix1 j))
      (Ideal.ofBits .f32 0x47C35000#32) = _
  rw [shapeCast_1a_a_apply, slice2_axis0_apply 1 S slices_S2x128_S1x128_1_0 0 j 1 rfl]

private theorem hScale_apply (S : SStat.Idx → EReal) (g : SVec.Idx → EReal) (j : Fin 128) :
    hScale S g (ix1 j)
      = g (ix1 j) * Ideal.rsqrt ((Ideal.div (S (ix2 1 j)) Nf - Ideal.div (S (ix2 0 j)) Nf * Ideal.div (S (ix2 0 j)) Nf) + eps) := by
  rw [← hSq_apply, ← hMean_apply]
  unfold eps
  rfl

private theorem hShift_apply (S : SStat.Idx → EReal) (g b : SVec.Idx → EReal) (j : Fin 128) :
    hShift S g b (ix1 j) = b (ix1 j) - Ideal.div (S (ix2 0 j)) Nf * hScale S g (ix1 j) := by
  rw [← hMean_apply]
  rfl

/-- What the first region leaves in the statistics array, the scale argument and the shift argument, as the second host
    stretch reads them. -/
private theorem W2_stat (c : Dev nD) :
    (W2 (F := Ideal) m c (Proc.devRef .tc main_v16_1) : SStat.Idx → EReal) = (dat0 (F := Ideal) (V1 m) c).arrAt 7 cfg0.N :=
  W2_arr m c 7
private theorem W2_arg6 (c : Dev nD) :
    (W2 (F := Ideal) m c (Proc.devRef .tc main_arg6) : SVec.Idx → EReal) = m ((c.tc : Thread nD τ).loc main_arg6) :=
  (W2_of_ne m c main_arg6 (by decide)).trans
    (StableHlo.after_of_writes_sub hostOps0 (W0 m c) hostOps0_writes (by decide : main_arg6 ∉ hostOps0_W))
private theorem W2_arg7 (c : Dev nD) :
    (W2 (F := Ideal) m c (Proc.devRef .tc main_arg7) : SVec.Idx → EReal) = m ((c.tc : Thread nD τ).loc main_arg7) :=
  (W2_of_ne m c main_arg7 (by decide)).trans
    (StableHlo.after_of_writes_sub hostOps0 (W0 m c) hostOps0_writes (by decide : main_arg7 ∉ hostOps0_W))

/-- The scale row is the scale vector reshaped. -/
private theorem V3_v33_eq (c : Dev nD) :
    (V3 (F := Ideal) m c main_v33 : SRow.Idx → EReal)
      = shapeCast SRow (hScale (W2 (F := Ideal) m c (Proc.devRef .tc main_v16_1)) (W2 (F := Ideal) m c (Proc.devRef .tc main_arg6)))
          shapeCasts_S128_S1x128 := by
  show StableHlo.after hostOps1 (W2 m c) (Proc.devRef .tc main_v33) = _
  after_results; rfl

/-- The shift row is the shift vector reshaped. -/
private theorem V3_v34_eq (c : Dev nD) :
    (V3 (F := Ideal) m c main_v34 : SRow.Idx → EReal)
      = shapeCast SRow (hShift (W2 (F := Ideal) m c (Proc.devRef .tc main_v16_1)) (W2 (F := Ideal) m c (Proc.devRef .tc main_arg6))
            (W2 (F := Ideal) m c (Proc.devRef .tc main_arg7)))
          shapeCasts_S128_S1x128 := by
  show StableHlo.after hostOps1 (W2 m c) (Proc.devRef .tc main_v34) = _
  after_results_simp; rfl

/-- The scale row: `γ·rsqrt((s₁/N − (s₀/N)·(s₀/N)) + ε)`. -/
theorem V3_v33 (c : Dev nD) (j : Fin 128) :
    eSc (V3 (F := Ideal) m) c (ix2 0 j)
      = aG m c (ix1 j)
          * Ideal.rsqrt ((Ideal.div (stat m c 1 j) Nf - Ideal.div (stat m c 0 j) Nf * Ideal.div (stat m c 0 j) Nf) + eps) := by
  show (V3 (F := Ideal) m c main_v33 : SRow.Idx → EReal) (ix2 0 j) = _
  rw [V3_v33_eq, shapeCast_a_1a_apply, hScale_apply, W2_stat, W2_arg6]
  unfold stat
  rfl

/-- The shift row: `β − (s₀/N)·scale`. -/
theorem V3_v34 (c : Dev nD) (j : Fin 128) :
    eSh (V3 (F := Ideal) m) c (ix2 0 j)
      = aBt m c (ix1 j) - Ideal.div (stat m c 0 j) Nf * eSc (V3 (F := Ideal) m) c (ix2 0 j) := by
  show (V3 (F := Ideal) m c main_v34 : SRow.Idx → EReal) (ix2 0 j)
    = aBt m c (ix1 j) - Ideal.div (stat m c 0 j) Nf * (V3 (F := Ideal) m c main_v33 : SRow.Idx → EReal) (ix2 0 j)
  rw [V3_v34_eq, V3_v33_eq, shapeCast_a_1a_apply, shapeCast_a_1a_apply, hShift_apply, W2_stat, W2_arg7]
  unfold stat
  rfl

end Cert.KernelIdeal.Fr

end
-- ==== Proof.KI.KVal.lean ====
/-
  The kernel program's result over the extended reals, as a function of its arguments: at row `i`, feature `j` the
  result array holds the folded arrangement `h·scale + shift + x` of the specification, where `h` is the perceptron of
  the aggregated features (the reference's own aggregation stage of the same two arguments, never opened), the features,
  the weights and the biases.

  Put together from: the second region's result as a function of what it is entered with; what the second host stretch
  makes of the first region's statistics (scale and shift rows); the first region's two arrays as functions of what it
  is entered with (the perceptron at every row; each column's sum and sum of squares); and what the first host stretch
  leaves (the aggregate, the bias rows).
-/
import proofs.«132064_j22196390986098_1_alg».proof.Proof.KI.Val0
import proofs.«132064_j22196390986098_1_alg».proof.Proof.KI.Val1
import proofs.«132064_j22196390986098_1_alg».proof.Proof.KI.ValHost

-- membership in a rectangle of 2000 rows: the elaborator recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec Idealize.ShloMosaic.ValueIdx

variable (m : (ℓ : Loc nD τ sig) → Buf (Elt Ideal) ℓ)

/-- The aggregated features: the reference's aggregation stage of this program's features and edge list. -/
abbrev aAgg (c : Dev nD) : SMat.Idx → EReal :=
  Cert.ReferenceIdeal.Read.val_main_v13 (F := Ideal) (m ((c.tc : Thread nD τ).loc main_arg0)) (m ((c.tc : Thread nD τ).loc main_arg1))

/-- The perceptron of the arguments. -/
abbrev hArg (c : Dev nD) : Fin NR → Fin ND → EReal :=
  mlp (mat (aAgg m c)) (mat (aX m c)) (sqm (aW1 m c)) (vec (aB1 m c)) (sqm (aW2 m c)) (vec (aB2 m c))

/-- The perceptron of what the first region is entered with is the perceptron of the arguments. -/
theorem hM_eq (c : Dev nD) : hM (V1 (F := Ideal) m) c = hArg m c := by
  have e13 : eAgg (V1 (F := Ideal) m) c = aAgg m c := V1_v13 m c
  have e0 : eX (V1 (F := Ideal) m) c = aX m c := V1_arg0 m c
  have e2 : eW1 (V1 (F := Ideal) m) c = aW1 m c := V1_arg2 m c
  have e4 : eW2 (V1 (F := Ideal) m) c = aW2 m c := V1_arg4 m c
  have eb1 : (fun k => eB1 (V1 (F := Ideal) m) c (ix2 0 k)) = vec (aB1 m c) := funext fun k => V1_v14 m c k
  have eb2 : (fun k => eB2 (V1 (F := Ideal) m) c (ix2 0 k)) = vec (aB2 m c) := funext fun k => V1_v15 m c k
  unfold hM
  rw [e13, e0, e2, e4, eb1, eb2]

/-- THE KERNEL'S VALUE: the result array at row `i`, feature `j`. -/
theorem kernel_value (c : Dev nD) (i : Fin NR) (j : Fin ND) :
    (dat1 (F := Ideal) (V3 m) c).arrAt 4 cfg1.N (ix2 i j)
      = outK (hArg m c) (mat (aX m c)) (vec (aG m c)) (vec (aBt m c)) i j := by
  rw [arr1_4 (V3 m) c i j]
  have hH : eH (V3 (F := Ideal) m) c (ix2 i j) = hArg m c i j := by
    have e : eH (V3 (F := Ideal) m) c = (dat0 (F := Ideal) (V1 m) c).arrAt 6 cfg0.N := V3_v16_0 m c
    rw [e]
    exact (arr0_6 (V1 m) c i j).trans (congrFun (congrFun (hM_eq m c) i) j)
  have hX : eX (V3 (F := Ideal) m) c (ix2 i j) = mat (aX m c) i j := congrFun (V3_arg0 m c) (ix2 i j)
  have hs0 : stat m c 0 j = colSum (hArg m c) j := by
    unfold stat; exact (arr0_7_row0 (V1 m) c j).trans (by rw [hM_eq])
  have hs1 : stat m c 1 j = colSum (fun i j => hArg m c i j * hArg m c i j) j := by
    unfold stat; exact (arr0_7_row1 (V1 m) c j).trans (by rw [hM_eq])
  rw [hH, hX, V3_v34 m c j, V3_v33 m c j, hs0, hs1]
  rfl

end Cert.KernelIdeal.Fr

end
-- ==== Proof.RefValue.lean ====
/-
  The reference's result read index by index: its host run composed stage by stage, each stage at an index, is the
  textbook arrangement `(h − μ)·rsqrt(var + ε)·γ + β + x` of the specification, with `h` the perceptron of the
  aggregated features (the scatter-sum of gathered rows, kept as one unopened function of `x` and the edge list).
-/
import proofs.«132064_j22196390986098_1_alg».proof.Proof.Gen.ReferenceIdeal.Run
import proofs.«132064_j22196390986098_1_alg».proof.Proof.Gen.ReferenceIdeal.Read
import proofs.«132064_j22196390986098_1_alg».proof.Proof.Spec

noncomputable section

namespace Cert.ReferenceIdeal.RefValue

open Cert.ReferenceIdeal Cert.ReferenceIdeal.Gen Idealize.ShloMosaic Idealize.ShloMosaic.ValueIdx Cert.Spec

/-- A scatter-sum into real entries of real updates is real at every index: the entry plus a finite sum of updates. -/
private theorem scatterAdd_isReal {s si su : Shape} {w : Nat} {φ : FTy} (d : ScatterDims s si su) (x : FVec Ideal s φ)
    (idx : IVec si w) (upd : FVec Ideal su φ) (hx : ∀ i, IsReal (x i)) (hu : ∀ j, IsReal (upd j)) (i : s.Idx) :
    IsReal (Host.scatterAdd d x idx upd i) := by
  unfold Host.scatterAdd
  simp only [Ideal.hostScatterAdd_def]
  unfold Ideal.hostScatterAdd
  exact IsReal.add (hx i) (IsReal.sum _ _ fun j _ => hu j)

/-- The aggregated features are real when the features are: each entry is zero plus a finite sum of gathered
    entries of `x`. -/
theorem agg_isReal (x0 : (⟨S100000x128, .f32⟩ : BufTy).Contents (Elt Ideal)) (x1 : (⟨S2x1600000, .i32⟩ : BufTy).Contents (Elt Ideal))
    (hx : ∀ i, IsReal (x0 i)) (i : S100000x128.Idx) : IsReal (Read.val_main_v13 (F := Ideal) x0 x1 i) := by
  have ha : ∀ k, IsReal (Read.val_main_v11 (F := Ideal) k) := fun k => by
    rw [Read.val_main_v11_apply, Read.val_main_cst_apply, Ideal.ofBits_def, Ideal.ofBits_zero_f32]; exact isReal_zero
  have hu : ∀ k, IsReal (Read.val_main_v10 (F := Ideal) x0 x1 k) := fun k => hx _
  unfold Read.val_main_v13
  generalize Read.val_main_v11 (F := Ideal) = a at ha ⊢
  generalize Read.val_main_v12 (F := Ideal) x1 = b
  generalize Read.val_main_v10 (F := Ideal) x0 x1 = u at hu ⊢
  exact scatterAdd_isReal _ a b u ha hu i

section Stages

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- The hidden layer: the first product of `a + x` with `W₁`, the bias added, the maximum with zero taken. -/
private theorem hidden_eq (i : Fin NR) (k : Fin ND) :
    Read.val_main_v19 (F := Ideal) x0 x1 x2 x3 (ix2 i k)
      = hidden (mat (Read.val_main_v13 (F := Ideal) x0 x1)) (mat x0) (sqm x2) (vec x3) i k := by
  rw [Read.val_main_v19_apply, Read.val_main_v18_apply, Read.val_main_v15_apply, Read.val_main_v17_apply,
    Read.val_main_v16_apply, Read.val_main_call0_v0_apply, Read.val_main_call0_cst_apply,
    Ideal.maximumf_def, Ideal.addf_def, Ideal.ofBits_def, Ideal.ofBits_zero_f32]
  have e3 : x3 (Read.idx_main_v16 (Read.idx_main_v17 (ix2 i k))) = vec x3 k :=
    congrArg x3 (funext fun a => Fin.ext (by match a with | ⟨0, _⟩ => rfl))
  have es : ∀ l : Fin 128, Read.val_main_v14 (F := Ideal) x0 x1 (Read.lidx_main_v15 (ix2 i k) l) * x2 (Read.ridx_main_v15 (ix2 i k) l)
      = (mat (Read.val_main_v13 (F := Ideal) x0 x1) i l + mat x0 i l) * sqm x2 l k := fun l => by
    have el : Read.lidx_main_v15 (ix2 i k) l = ix2 i l := funext fun a => Fin.ext (by match a with | ⟨0, _⟩ => rfl | ⟨1, _⟩ => rfl)
    have er : Read.ridx_main_v15 (ix2 i k) l = ix2 l k := funext fun a => Fin.ext (by match a with | ⟨0, _⟩ => rfl | ⟨1, _⟩ => rfl)
    rw [el, er, Read.val_main_v14_apply, Ideal.addf_def]
    generalize Read.val_main_v13 (F := Ideal) x0 x1 = A
    rfl
  rw [e3, Finset.sum_congr rfl fun l _ => es l]
  generalize Read.val_main_v13 (F := Ideal) x0 x1 = A
  rfl

/-- The perceptron's output: the second product of the hidden layer with `W₂`, the bias added. -/
private theorem h_eq (i : Fin NR) (j : Fin ND) :
    Read.val_main_v23 (F := Ideal) x0 x1 x2 x3 x4 x5 (ix2 i j) = (mlp (mat (Read.val_main_v13 (F := Ideal) x0 x1)) (mat x0) (sqm x2) (vec x3) (sqm x4) (vec x5)) i j := by
  rw [Read.val_main_v23_apply, Read.val_main_v20_apply, Read.val_main_v22_apply, Read.val_main_v21_apply, Ideal.addf_def]
  have e5 : x5 (Read.idx_main_v21 (Read.idx_main_v22 (ix2 i j))) = vec x5 j :=
    congrArg x5 (funext fun a => Fin.ext (by match a with | ⟨0, _⟩ => rfl))
  have es : ∀ k : Fin 128, Read.val_main_v19 (F := Ideal) x0 x1 x2 x3 (Read.lidx_main_v20 (ix2 i j) k) * x4 (Read.ridx_main_v20 (ix2 i j) k)
      = hidden (mat (Read.val_main_v13 (F := Ideal) x0 x1)) (mat x0) (sqm x2) (vec x3) i k * sqm x4 k j := fun k => by
    have el : Read.lidx_main_v20 (ix2 i j) k = ix2 i k := funext fun a => Fin.ext (by match a with | ⟨0, _⟩ => rfl | ⟨1, _⟩ => rfl)
    have er : Read.ridx_main_v20 (ix2 i j) k = ix2 k j := funext fun a => Fin.ext (by match a with | ⟨0, _⟩ => rfl | ⟨1, _⟩ => rfl)
    rw [el, er, hidden_eq]
    generalize hidden (mat (Read.val_main_v13 (F := Ideal) x0 x1)) (mat x0) (sqm x2) (vec x3) = G
    rfl
  rw [e5, Finset.sum_congr rfl fun k _ => es k]
  unfold mlp
  generalize hidden (mat (Read.val_main_v13 (F := Ideal) x0 x1)) (mat x0) (sqm x2) (vec x3) = G
  rfl

/-- The column means: the sum over the rows from zero, divided by the row count. -/
private theorem mean_eq (j : Fin ND) :
    Read.val_main_v26 (F := Ideal) x0 x1 x2 x3 x4 x5 (ix1 j) = mean (mlp (mat (Read.val_main_v13 (F := Ideal) x0 x1)) (mat x0) (sqm x2) (vec x3) (sqm x4) (vec x5)) j := by
  rw [Read.val_main_v26_apply, Read.val_main_v24_apply, Read.val_main_v25_apply, Read.val_main_cst_2_apply,
    Read.val_main_cst_1_apply, Ideal.hostDivf_def, Ideal.ofBits_def, Ideal.ofBits_zero_f32, zero_add, Ideal.ofBits_def]
  have es : ∀ k : Fin 100000, Read.val_main_v23 (F := Ideal) x0 x1 x2 x3 x4 x5 (Read.idx_main_v24 (ix1 j) k)
      = (mlp (mat (Read.val_main_v13 (F := Ideal) x0 x1)) (mat x0) (sqm x2) (vec x3) (sqm x4) (vec x5)) k j := fun k => by
    have e : Read.idx_main_v24 (ix1 j) k = ix2 k j := funext fun a => Fin.ext (by match a with | ⟨0, _⟩ => rfl | ⟨1, _⟩ => rfl)
    rw [e, h_eq]
  rw [Finset.sum_congr rfl fun k _ => es k]
  generalize (mlp (mat (Read.val_main_v13 (F := Ideal) x0 x1)) (mat x0) (sqm x2) (vec x3) (sqm x4) (vec x5)) = h
  unfold mean colSum Nf
  rfl

/-- The column variances: the sum over the rows, from zero, of the squared deviations from the mean, divided by the
    row count. -/
private theorem var_eq (j : Fin ND) :
    Read.val_main_v33 (F := Ideal) x0 x1 x2 x3 x4 x5 (ix1 j) = varR (mlp (mat (Read.val_main_v13 (F := Ideal) x0 x1)) (mat x0) (sqm x2) (vec x3) (sqm x4) (vec x5)) j := by
  rw [Read.val_main_v33_apply, Read.val_main_v31_apply, Read.val_main_v32_apply, Read.val_main_cst_4_apply,
    Read.val_main_cst_3_apply, Ideal.hostDivf_def, Ideal.ofBits_def, Ideal.ofBits_zero_f32, zero_add, Ideal.ofBits_def]
  have es : ∀ k : Fin 100000, Read.val_main_v30 (F := Ideal) x0 x1 x2 x3 x4 x5 (Read.idx_main_v31 (ix1 j) k)
      = ((mlp (mat (Read.val_main_v13 (F := Ideal) x0 x1)) (mat x0) (sqm x2) (vec x3) (sqm x4) (vec x5)) k j - mean (mlp (mat (Read.val_main_v13 (F := Ideal) x0 x1)) (mat x0) (sqm x2) (vec x3) (sqm x4) (vec x5)) j) * ((mlp (mat (Read.val_main_v13 (F := Ideal) x0 x1)) (mat x0) (sqm x2) (vec x3) (sqm x4) (vec x5)) k j - mean (mlp (mat (Read.val_main_v13 (F := Ideal) x0 x1)) (mat x0) (sqm x2) (vec x3) (sqm x4) (vec x5)) j) := fun k => by
    have e : Read.idx_main_v31 (ix1 j) k = ix2 k j := funext fun a => Fin.ext (by match a with | ⟨0, _⟩ => rfl | ⟨1, _⟩ => rfl)
    have eb : Read.idx_main_v27 (Read.idx_main_v28 (ix2 k j)) = ix1 j := funext fun a => Fin.ext (by match a with | ⟨0, _⟩ => rfl)
    rw [e, Read.val_main_v30_apply, Read.val_main_v29_apply, Read.val_main_v28_apply, Read.val_main_v27_apply, eb,
      h_eq, mean_eq, Ideal.mulf_def, Ideal.subf_def]
  rw [Finset.sum_congr rfl fun k _ => es k]
  generalize (mlp (mat (Read.val_main_v13 (F := Ideal) x0 x1)) (mat x0) (sqm x2) (vec x3) (sqm x4) (vec x5)) = h
  unfold varR colSum Nf
  rfl

end Stages

/-- The reference's result at row `i`, feature `j`. -/
theorem ref_value (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 x7 : (⟨S128, .f32⟩ : BufTy).Contents (Elt Ideal))
    (i : Fin NR) (j : Fin ND) :
    Read.val_main_v49 (F := Ideal) x0 x1 x2 x3 x4 x5 x6 x7 (ix2 i j)
      = outR (mlp (mat (Read.val_main_v13 (F := Ideal) x0 x1)) (mat x0) (sqm x2) (vec x3) (sqm x4) (vec x5))
          (mat x0) (vec x6) (vec x7) i j := by
  have eb1 : Read.idx_main_v34 (Read.idx_main_v35 (ix2 i j)) = ix1 j := funext fun a => Fin.ext (by match a with | ⟨0, _⟩ => rfl)
  have eb2 : Read.idx_main_v40 (Read.idx_main_v41 (ix2 i j)) = ix1 j := funext fun a => Fin.ext (by match a with | ⟨0, _⟩ => rfl)
  have e6 : x6 (Read.idx_main_v43 (Read.idx_main_v44 (ix2 i j))) = vec x6 j :=
    congrArg x6 (funext fun a => Fin.ext (by match a with | ⟨0, _⟩ => rfl))
  have e7 : x7 (Read.idx_main_v46 (Read.idx_main_v47 (ix2 i j))) = vec x7 j :=
    congrArg x7 (funext fun a => Fin.ext (by match a with | ⟨0, _⟩ => rfl))
  rw [Read.val_main_v49_apply, Read.val_main_v48_apply, Read.val_main_v45_apply, Read.val_main_v42_apply,
    Read.val_main_v36_apply, Read.val_main_v35_apply, Read.val_main_v34_apply, eb1,
    Read.val_main_v41_apply, Read.val_main_v40_apply, eb2, Read.val_main_v39_apply, Read.val_main_v38_apply,
    Read.val_main_v37_apply, Read.val_main_cst_5_apply,
    Read.val_main_v44_apply, Read.val_main_v43_apply, e6, Read.val_main_v47_apply, Read.val_main_v46_apply, e7,
    h_eq, mean_eq, var_eq]
  simp only [Ideal.addf_def, Ideal.subf_def, Ideal.mulf_def, Ideal.hostUnary_rsqrt_def, Ideal.ofBits_def]
  generalize (mlp (mat (Read.val_main_v13 (F := Ideal) x0 x1)) (mat x0) (sqm x2) (vec x3) (sqm x4) (vec x5)) = h
  unfold outR eps
  rfl

end Cert.ReferenceIdeal.RefValue

end
-- ==== Proof.PreReal.lean ====
/-
  The precondition read: when the finiteness predicate answers all ones, every entry of every float argument is a
  real number (`|v| < +∞` at every index, the conjunction of the seven per-array tests).
-/
import proofs.«132064_j22196390986098_1_alg».proof.Pre_finite_inputs
import proofs.«132064_j22196390986098_1_alg».proof.Proof.Gen.Pre_finite_inputs
import proofs.«132064_j22196390986098_1_alg».proof.Proof.Spec
import Idealize.ShloMosaic.Lib.ReduceAll

noncomputable section

namespace Cert.PreReal

open Cert.Pre_finite_inputs Idealize.ShloMosaic Cert.Spec

/-- The result shape of a reduction over all axes has exactly one index. -/
instance subsingleton_S_Idx : Subsingleton S_.Idx := ⟨fun a b => funext fun d => d.elim0⟩

/-- The pattern `0x7F800000` denotes `+∞`. -/
theorem ofBits_inf : Ideal.ofBits .f32 0x7F800000#32 = ⊤ := by simp [Ideal.ofBits, Ideal.ieee]

/-- One value: `|x| < +∞` answering 1 means `x` is neither infinity, hence a real number. -/
theorem isReal_of_abs_lt_top (x : EReal) (h : Ideal.cmp .olt (max x (-x)) ⊤ = 1#1) : IsReal x := by
  induction x using EReal.rec with
  | bot => simp [Ideal.cmp] at h
  | top => simp [Ideal.cmp] at h
  | coe r => exact ⟨r, rfl⟩

/-- One array of any shape: the conjunction over all indices of `|a| < +∞` answering 1 means every entry is a real number. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ValueIdx.ix0 = 1#1) :
    ∀ i, IsReal (a i) := by
  intro i
  have hi := Host.reduce_andi_all _ _ hr hu _ e i
  refine isReal_of_abs_lt_top (a i) ?_
  rw [← ofBits_inf]
  exact hi

/-- All ones from the finiteness predicate means every float argument's entries are real numbers. -/
theorem real_of_pre [Cert.Pre_finite_inputs.Facts]
    (a0 : FVec Ideal S100000x128 .f32) (a1 : IVec S2x1600000 32) (a2 : FVec Ideal S128x128 .f32) (a3 : FVec Ideal S128 .f32)
    (a4 : FVec Ideal S128x128 .f32) (a5 a6 a7 : FVec Ideal S128 .f32)
    (h : Cert.Pre_finite_inputs.fn (F := Ideal) a0 a1 a2 a3 a4 a5 a6 a7 = fun _ => 1#1) :
    (∀ i, IsReal (a0 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) := by
  have h0 := congrFun h ValueIdx.ix0
  dsimp only [Cert.Pre_finite_inputs.fn, Cert.Pre_finite_inputs.fn_part1] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨all_real a0 _ _ _ e0, all_real a2 _ _ _ e2, all_real a3 _ _ _ e3, all_real a4 _ _ _ e4,
    all_real a5 _ _ _ e5, all_real a6 _ _ _ e6, all_real a7 _ _ _ e7⟩

end Cert.PreReal

end
-- ==== Proof.lean ====
/-
  The certificate's claim: the kernel program and its reference compute the same graph-isomorphism-network layer.

  Both programs aggregate each node's neighbours' features by the same scatter-sum of gathered rows, add the node's
  own features, apply the same two-layer perceptron `h = max((a + x)·W₁ + b₁, 0)·W₂ + b₂`, normalise every feature column
  of `h` by its mean and variance over the 100000 nodes, scale by `γ`, shift by `β` and add `x` back. The kernel program
  computes `h` and the column sums of `h` and `h²` in one pipelined region over 50 blocks of 2000 rows (a scratch
  accumulator carried from block to block), forms `scale = γ·rsqrt(Σh²/N − (Σh/N)² + ε)` and `shift = β − (Σh/N)·scale`
  on the host, and applies `h·scale + shift + x` in a second pipelined region; the reference computes
  `(h − μ)·rsqrt(Σ(h−μ)²/N + ε)·γ + β + x` on whole arrays.

  * The three frame claims: the reference's from its host run; the kernel's, at the word-level instance and at the
    ideal one, from the run of its four stretches (host operations, region, host operations, region) with every
    unscoped buffer followed from the launch.
  * `preserves`: the ideal pass rewrote nothing.
  * `algebraic`: at the ideal instance a matrix product into zero is the plain sum of products on both sides, a change
    of float format is the identity, and sums may be regrouped freely, so both programs see the same `h`; under the
    precondition every input entry is a real number, hence so is every entry of `h`, and over the reals the two
    variances are one number and the two affine forms are one by distributivity.
-/
import proofs.«132064_j22196390986098_1_alg».proof.Defs
import proofs.«132064_j22196390986098_1_alg».proof.Proof.Gen.Kernel
import proofs.«132064_j22196390986098_1_alg».proof.Proof.Gen.KernelIdeal
import proofs.«132064_j22196390986098_1_alg».proof.Proof.Gen.ReferenceIdeal
import proofs.«132064_j22196390986098_1_alg».proof.Proof.Gen.Pre_finite_inputs
import proofs.«132064_j22196390986098_1_alg».proof.Proof.Gen.ReferenceIdeal.Run
import proofs.«132064_j22196390986098_1_alg».proof.Proof.K.Run
import proofs.«132064_j22196390986098_1_alg».proof.Proof.KI.KVal
import proofs.«132064_j22196390986098_1_alg».proof.Proof.RefValue
import proofs.«132064_j22196390986098_1_alg».proof.Proof.PreReal
import Idealize.ShloMosaic.Adequacy
import Idealize.ShloMosaic.Init

noncomputable section

namespace Cert.Proof

open Idealize.ShloMosaic Idealize.ShloMosaic.TcCoe Idealize.SL.Sem Cert.Spec

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition every entry of the perceptron of the arguments, of `γ` and of `β` is a real number, so the
    folded arrangement the kernel program ends with is the textbook arrangement the reference ends with. -/
theorem value_eq (m : (ℓ : Loc Cert.KernelIdeal.nD Cert.KernelIdeal.τ Cert.KernelIdeal.sig) → Buf (Elt Ideal) ℓ)
    (hpre : Cert.Pre_KernelIdeal m) (c : Dev Cert.KernelIdeal.nD) (i : Fin NR) (j : Fin ND) :
    outK (Cert.KernelIdeal.Fr.hArg m c) (mat (Cert.KernelIdeal.Fr.aX m c)) (vec (Cert.KernelIdeal.Fr.aG m c)) (vec (Cert.KernelIdeal.Fr.aBt m c)) i j
      = outR (Cert.KernelIdeal.Fr.hArg m c) (mat (Cert.KernelIdeal.Fr.aX m c)) (vec (Cert.KernelIdeal.Fr.aG m c)) (vec (Cert.KernelIdeal.Fr.aBt m c)) i j := by
  obtain ⟨r0, r2, r3, r4, r5, r6, r7⟩ := Cert.PreReal.real_of_pre _ _ _ _ _ _ _ _ (hpre c)
  refine outK_eq_outR (fun i j => mlp_isReal (fun i l => ?_) (fun i l => r0 _) (fun l k => r2 _) (fun k => r3 _)
    (fun k j => r4 _) (fun j => r5 _) i j) (fun j => r6 _) (fun j => r7 _) i j
  exact Cert.ReferenceIdeal.RefValue.agg_isReal _ _ r0 _

theorem algebraic : Cert.algebraic_KernelIdeal_ReferenceIdeal := by
  intro m g m' g' hpre hagree
  refine ⟨fun c => (Cert.KernelIdeal.Fr.dat1 (F := Ideal) (Cert.KernelIdeal.Fr.V3 m) c).arrAt 4 Cert.KernelIdeal.cfg1.N, ?_, ?_⟩
  · exact (θ_run Cert.KernelIdeal.defs _ _).mono
      (fun r h c => ⟨Cert.KernelIdeal.Fr.result_at m r.2 c (h c), Cert.KernelIdeal.Fr.args_kept m r.2 c (h c)⟩)
      (Cert.KernelIdeal.Fr.run_all m g)
  · refine (θ_run Cert.ReferenceIdeal.defs _ _).mono (fun r h c => ⟨(h c).1.trans ?_, (h c).2⟩)
      (Cert.ReferenceIdeal.Value.run (F := Ideal) m' g')
    rw [Cert.ReferenceIdeal.Read.val_main_v49_eq]
    obtain ⟨h0, h1, h2, h3, h4, h5, h6, h7⟩ := hagree c
    rw [h0, h1, h2, h3, h4, h5, h6, h7]
    funext idx
    obtain ⟨i, j, rfl⟩ : ∃ (i : Fin NR) (j : Fin ND), idx = ValueIdx.ix2 i j := ⟨idx 0, idx 1, ValueIdx.eq_ix2 idx⟩
    rw [Cert.ReferenceIdeal.RefValue.ref_value]
    exact ((Cert.KernelIdeal.Fr.kernel_value m c i j).trans (value_eq m hpre c i j)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
